-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1x32 : Shape := ⟨2, ![1, 32]⟩
abbrev S224x32 : Shape := ⟨2, ![224, 32]⟩
abbrev S32 : Shape := ⟨1, ![32]⟩
abbrev S32x64 : Shape := ⟨2, ![32, 64]⟩
abbrev S64 : Shape := ⟨1, ![64]⟩
abbrev S2x1000000 : Shape := ⟨2, ![2, 1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S1x32 : S_.BroadcastsInDim S1x32 (![] : Fin 0 → Fin S1x32.rank)
  reducesTo_S1x32_S_d0_1 : S1x32.ReducesTo [0, 1] S_
  bcast_S_S224x32 : S_.BroadcastsInDim S224x32 (![] : Fin 0 → Fin S224x32.rank)
  reducesTo_S224x32_S_d0_1 : S224x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part2 {F : FTy → Type} [FloatOps F] (main_arg7 : IVec S2x1000000 32) (main_v33 : IVec S_ 1) : IVec S_ 1 :=
  let main_c_12 : IVec S_ 32 := constantI S_ 32 4294867296#32
  let main_v34 : IVec S2x1000000 32 := broadcastInDim S2x1000000 ![] bcast_S_S2x1000000 main_c_12
  let main_v35 : IVec S2x1000000 1 := cmpi .sge main_arg7 main_v34
  let main_c_13 : IVec S_ 32 := constantI S_ 32 99999#32
  let main_v36 : IVec S2x1000000 32 := broadcastInDim S2x1000000 ![] bcast_S_S2x1000000 main_c_13
  let main_v37 : IVec S2x1000000 1 := cmpi .sle main_arg7 main_v36
  let main_v38 : IVec S2x1000000 1 := andi main_v35 main_v37
  let main_c_14 : IVec S_ 1 := constantI S_ 1 1#1
  let main_v39 : IVec S_ 1 := (fun x v => Host.reduce IntOp.andi x v reducesTo_S2x1000000_S_d0_1 h_S_) main_v38 main_c_14
  let main_v40 : IVec S_ 1 := andi main_v33 main_v39
  main_v40

def fn_part1 {F : FTy → Type} [FloatOps F] (main_arg4 : FVec F S32 .f32) (main_arg5 : FVec F S32x64 .f32) (main_arg6 : FVec F S64 .f32) (main_arg7 : IVec S2x1000000 32) (main_v13 : IVec S_ 1) (main_v16 : IVec S224x32 1) : IVec S_ 1 :=
  let main_c_5 : IVec S_ 1 := constantI S_ 1 1#1
  let main_v17 : IVec S_ 1 := (fun x v => Host.reduce IntOp.andi x v reducesTo_S224x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S1000000x64 .f32) (main_arg2 : FVec F S1x32 .f32) (main_arg3 : FVec F S224x32 .f32) (main_arg4 : FVec F S32 .f32) (main_arg5 : FVec F S32x64 .f32) (main_arg6 : FVec F S64 .f32) (main_arg7 : IVec S2x1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S224x32 .f32 := Host.absf main_arg3
  let main_cst_4 : FVec F S_ .f32 := constant S_ .f32 0x7F800000#32
  let main_v15 : FVec F S224x32 .f32 := broadcastInDim S224x32 ![] bcast_S_S224x32 main_cst_4
  let main_v16 : IVec S224x32 1 := cmpf .olt main_v14 main_v15
  fn_part1 (F := F) main_arg4 main_arg5 main_arg6 main_arg7 main_v13 main_v16
-- ==== Kernel.lean ====
abbrev S100000x64 : Shape := ⟨2, ![100000, 64]⟩
abbrev S1000000x64 : Shape := ⟨2, ![1000000, 64]⟩
abbrev S1x32 : Shape := ⟨2, ![1, 32]⟩
abbrev S224x32 : Shape := ⟨2, ![224, 32]⟩
abbrev S32 : Shape := ⟨1, ![32]⟩
abbrev S32x64 : Shape := ⟨2, ![32, 64]⟩
abbrev S64 : Shape := ⟨1, ![64]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S64x32 : Shape := ⟨2, ![64, 32]⟩
abbrev S32x32 : Shape := ⟨2, ![32, 32]⟩
abbrev S1x64 : Shape := ⟨2, ![1, 64]⟩
abbrev S16384x64 : Shape := ⟨2, ![16384, 64]⟩
abbrev S16384x32 : Shape := ⟨2, ![16384, 32]⟩

abbrev nBuf : Space → Nat
  | .hbm => 67
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1x32, .f32⟩
  | .hbm, ⟨3, _⟩ => ⟨S224x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S2x1000000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1, .i32⟩
  | .hbm, ⟨21, _⟩ => ⟨S_, .i32⟩
  | .hbm, ⟨22, _⟩ => ⟨S1000000x1, .i32⟩
  | .hbm, ⟨23, _⟩ => ⟨S1000000x1, .i1⟩
  | .hbm, ⟨24, _⟩ => ⟨S1x1, .i32⟩
  | .hbm, ⟨25, _⟩ => ⟨S1000000x1, .i32⟩
  | .hbm, ⟨26, _⟩ => ⟨S1000000x1, .i1⟩
  | .hbm, ⟨27, _⟩ => ⟨S1000000x1, .i1⟩
  | .hbm, ⟨28, _⟩ => ⟨S_, .i1⟩
  | .hbm, ⟨29, _⟩ => ⟨S1000000, .i1⟩
  | .hbm, ⟨30, _⟩ => ⟨S1000000x64, .f32⟩
  | .hbm, ⟨31, _⟩ => ⟨S1000000x64, .i1⟩
  | .hbm, ⟨32, _⟩ => ⟨S_, .f32⟩
  | .hbm, ⟨33, _⟩ => ⟨S1000000x64, .f32⟩
  | .hbm, ⟨34, _⟩ => ⟨S1000000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1, .i32⟩
  | .hbm, ⟨44, _⟩ => ⟨S_, .i32⟩
  | .hbm, ⟨45, _⟩ => ⟨S1000000x1, .i32⟩
  | .hbm, ⟨46, _⟩ => ⟨S1000000x1, .i1⟩
  | .hbm, ⟨47, _⟩ => ⟨S1x1, .i32⟩
  | .hbm, ⟨48, _⟩ => ⟨S1000000x1, .i32⟩
  | .hbm, ⟨49, _⟩ => ⟨S1000000x1, .i1⟩
  | .hbm, ⟨50, _⟩ => ⟨S1000000x1, .i1⟩
  | .hbm, ⟨51, _⟩ => ⟨S_, .i1⟩
  | .hbm, ⟨52, _⟩ => ⟨S1000000, .i1⟩
  | .hbm, ⟨53, _⟩ => ⟨S1000000x64, .f32⟩
  | .hbm, ⟨54, _⟩ => ⟨S1000000x64, .i1⟩
  | .hbm, ⟨55, _⟩ => ⟨S_, .f32⟩
  | .hbm, ⟨56, _⟩ => ⟨S1000000x64, .f32⟩
  | .hbm, ⟨57, _⟩ => ⟨S1000000x64, .f32⟩
  | .hbm, ⟨58, _⟩ => ⟨S64x32, .f32⟩
  | .hbm, ⟨59, _⟩ => ⟨S64x32, .f32⟩
  | .hbm, ⟨60, _⟩ => ⟨S64x32, .f32⟩
  | .hbm, ⟨61, _⟩ => ⟨S32x32, .f32⟩
  | .hbm, ⟨62, _⟩ => ⟨S1x32, .f32⟩
  | .hbm, ⟨63, _⟩ => ⟨S1x32, .f32⟩
  | .hbm, ⟨64, _⟩ => ⟨S1x32, .f32⟩
  | .hbm, ⟨65, _⟩ => ⟨S1x64, .f32⟩
  | .hbm, ⟨66, _⟩ => ⟨S1000000x64, .f32⟩
  | .local _ .vmem, ⟨0, _⟩ => ⟨S16384x64, .f32⟩
  | .local _ .vmem, ⟨1, _⟩ => ⟨S16384x64, .f32⟩
  | .local _ .vmem, ⟨2, _⟩ => ⟨S16384x64, .f32⟩
  | .local _ .vmem, ⟨3, _⟩ => ⟨S16384x64, .f32⟩
  | .local _ .vmem, ⟨4, _⟩ => ⟨S16384x64, .f32⟩
  | .local _ .vmem, ⟨5, _⟩ => ⟨S16384x64, .f32⟩
  | .local _ .vmem, ⟨6, _⟩ => ⟨S64x32, .f32⟩
  | .local _ .vmem, ⟨7, _⟩ => ⟨S64x32, .f32⟩
  | .local _ .vmem, ⟨8, _⟩ => ⟨S64x32, .f32⟩
  | .local _ .vmem, ⟨9, _⟩ => ⟨S1x32, .f32⟩
  | .local _ .vmem, ⟨10, _⟩ => ⟨S32x64, .f32⟩
  | .local _ .vmem, ⟨11, _⟩ => ⟨S1x64, .f32⟩
  | .local _ .vmem, ⟨12, _⟩ => ⟨S16384x64, .f32⟩
  | .local _ .vmem, ⟨13, _⟩ => ⟨S16384x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16384x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S224x32_S64x32_0_0 : S224x32.Slices ![0, 0] S64x32
  slices_S224x32_S64x32_64_0 : S224x32.Slices ![64, 0] S64x32
  slices_S224x32_S64x32_128_0 : S224x32.Slices ![128, 0] S64x32
  slices_S224x32_S32x32_192_0 : S224x32.Slices ![192, 0] S32x32
  shapeCasts_S32_S1x32 : S32.ShapeCasts S1x32
  shapeCasts_S64_S1x64 : S64.ShapeCasts S1x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16384x32 : S1x32.Broadcasts S16384x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  gather_S100000x64_S1000000x1_S1000000x64_1_0_n_n_0_1_164_wf : GatherDims.WF S100000x64 S1000000x1 S1000000x64 [1] [0] [] [0] [] 1 ![1, 64]
  dot_S1x32_S32x32_S1x32_1_0_0_1_n_n_wf : DotDims.WF S1x32 S32x32 S1x32 [1] [0] [0] [1] [] []
  dot_S16384x64_S64x32_S16384x32_1_0_0_1_n_n_wf : DotDims.WF S16384x64 S64x32 S16384x32 [1] [0] [0] [1] [] []
  dot_S16384x32_S32x64_S16384x64_1_0_0_1_n_n_wf : DotDims.WF S16384x32 S32x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x64.size a < S1000000x64.size a
  hwx0_0 : ∀ i : grid0.Coords, EltTy.bits .f32 = 32 ∨ (Rect.unit (s := S1000000x64) (fun a => cc0_transform_0 i a * S16384x64.size a) (fun a => (Pipeline.Clip.of (cc0_transform_0 i a) (S16384x64.size a) (S1000000x64.size a)).extent (S16384x64.size a)) fun a => Pipeline.Clip.inb (Pipeline.Clip.ok_of (hstart0_0 i a))).WholeWords (EltTy.packing .f32)
  hwxs0_0 : ∀ i : grid0.Coords, EltTy.bits .f32 = 32 ∨ (Rect.unit (s := S16384x64) (fun _ => 0) (fun a => (Pipeline.Clip.of (cc0_transform_0 i a) (S16384x64.size a) (S1000000x64.size a)).extent (S16384x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384x64.size a < S1000000x64.size a
  hwx0_1 : ∀ i : grid0.Coords, EltTy.bits .f32 = 32 ∨ (Rect.unit (s := S1000000x64) (fun a => cc0_transform_1 i a * S16384x64.size a) (fun a => (Pipeline.Clip.of (cc0_transform_1 i a) (S16384x64.size a) (S1000000x64.size a)).extent (S16384x64.size a)) fun a => Pipeline.Clip.inb (Pipeline.Clip.ok_of (hstart0_1 i a))).WholeWords (EltTy.packing .f32)
  hwxs0_1 : ∀ i : grid0.Coords, EltTy.bits .f32 = 32 ∨ (Rect.unit (s := S16384x64) (fun _ => 0) (fun a => (Pipeline.Clip.of (cc0_transform_1 i a) (S16384x64.size a) (S1000000x64.size a)).extent (S16384x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384x64.size a < S1000000x64.size a
  hwx0_2 : ∀ i : grid0.Coords, EltTy.bits .f32 = 32 ∨ (Rect.unit (s := S1000000x64) (fun a => cc0_transform_2 i a * S16384x64.size a) (fun a => (Pipeline.Clip.of (cc0_transform_2 i a) (S16384x64.size a) (S1000000x64.size a)).extent (S16384x64.size a)) fun a => Pipeline.Clip.inb (Pipeline.Clip.ok_of (hstart0_2 i a))).WholeWords (EltTy.packing .f32)
  hwxs0_2 : ∀ i : grid0.Coords, EltTy.bits .f32 = 32 ∨ (Rect.unit (s := S16384x64) (fun _ => 0) (fun a => (Pipeline.Clip.of (cc0_transform_2 i a) (S16384x64.size a) (S1000000x64.size a)).extent (S16384x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S16384x64.size a < S1000000x64.size a
  hwx0_9 : ∀ i : grid0.Coords, EltTy.bits .f32 = 32 ∨ (Rect.unit (s := S1000000x64) (fun a => cc0_transform_9 i a * S16384x64.size a) (fun a => (Pipeline.Clip.of (cc0_transform_9 i a) (S16384x64.size a) (S1000000x64.size a)).extent (S16384x64.size a)) fun a => Pipeline.Clip.inb (Pipeline.Clip.ok_of (hstart0_9 i a))).WholeWords (EltTy.packing .f32)
  hwxs0_9 : ∀ i : grid0.Coords, EltTy.bits .f32 = 32 ∨ (Rect.unit (s := S16384x64) (fun _ => 0) (fun a => (Pipeline.Clip.of (cc0_transform_9 i a) (S16384x64.size a) (S1000000x64.size a)).extent (S16384x64.size a)) fun a => (Nat.zero_add _).trans_le (Pipeline.Clip.extent_le (Pipeline.Clip.ok_of (hstart0_9 i a)))).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1x32_S32x32_S1x32_1_0_0_1_n_n : DotDims S1x32 S32x32 S1x32 where
  lhsContracting := [1]
  rhsContracting := [0]
  lhsNonContracting := [0]
  rhsNonContracting := [1]
  lhsBatch := []
  rhsBatch := []
  wf := dot_S1x32_S32x32_S1x32_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf

abbrev win0_0 : Pipeline.Window sig grid0 :=
  Pipeline.Window.ofSpecClip (Memref.whole main_arg1) S16384x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v4) S16384x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v5) S16384x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v6) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v14) S16384x64.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1x32 : Shape := ⟨2, ![1, 32]⟩
abbrev S224x32 : Shape := ⟨2, ![224, 32]⟩
abbrev S32 : Shape := ⟨1, ![32]⟩
abbrev S32x64 : Shape := ⟨2, ![32, 64]⟩
abbrev S64 : Shape := ⟨1, ![64]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x32 : Shape := ⟨2, ![1000000, 32]⟩
abbrev S1000000x224 : Shape := ⟨2, ![1000000, 224]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1x32, .f32⟩
  | .hbm, ⟨3, _⟩ => ⟨S224x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S2x1000000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S1000000x32, .f32⟩
  | .hbm, ⟨31, _⟩ => ⟨S1000000x224, .f32⟩
  | .hbm, ⟨32, _⟩ => ⟨S1000000x32, .f32⟩
  | .hbm, ⟨33, _⟩ => ⟨S1x32, .f32⟩
  | .hbm, ⟨34, _⟩ => ⟨S1000000x32, .f32⟩
  | .hbm, ⟨35, _⟩ => ⟨S1000000x32, .f32⟩
  | .hbm, ⟨36, _⟩ => ⟨S_, .f32⟩
  | .hbm, ⟨37, _⟩ => ⟨S1000000x32, .f32⟩
  | .hbm, ⟨38, _⟩ => ⟨S1000000x32, .f32⟩
  | .hbm, ⟨39, _⟩ => ⟨S1000000x64, .f32⟩
  | .hbm, ⟨40, _⟩ => ⟨S1x64, .f32⟩
  | .hbm, ⟨41, _⟩ => ⟨S1000000x64, .f32⟩
  | .hbm, ⟨42, _⟩ => ⟨S1000000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x32_S1000000x32_0_1 : S1x32.BroadcastsInDim S1000000x32 (![0, 1] : Fin 2 → Fin S1000000x32.rank)
  concatenates_S1000000x64_S1000000x64_S1000000x64_S1000000x32_S1000000x224_d1 : Shape.Concatenates [S1000000x64, S1000000x64, S1000000x64, S1000000x32] S1000000x224 1
  bcast_S32_S1x32_1 : S32.BroadcastsInDim S1x32 (![1] : Fin 1 → Fin S1x32.rank)
  bcast_S_S1000000x32 : S_.BroadcastsInDim S1000000x32 (![] : Fin 0 → Fin S1000000x32.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S100000x64_S1000000x1_S1000000x64_1_0_n_n_0_1_164_wf : GatherDims.WF S100000x64 S1000000x1 S1000000x64 [1] [0] [] [0] [] 1 ![1, 64]
  dot_S1000000x224_S224x32_S1000000x32_1_0_0_1_n_n_wf : DotDims.WF S1000000x224 S224x32 S1000000x32 [1] [0] [0] [1] [] []
  dot_S1000000x32_S32x64_S1000000x64_1_0_0_1_n_n_wf : DotDims.WF S1000000x32 S32x64 S1000000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x224_S224x32_S1000000x32_1_0_0_1_n_n : DotDims S1000000x224 S224x32 S1000000x32 where
  lhsContracting := [1]
  rhsContracting := [0]
  lhsNonContracting := [0]
  rhsNonContracting := [1]
  lhsBatch := []
  rhsBatch := []
  wf := dot_S1000000x224_S224x32_S1000000x32_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf

class Facts : Prop extends Facts₀ where

variable [Facts]
-- ==== Proof.KernelBody.lean ====
/-
  One grid point of the edge kernel: nine whole-buffer loads (three 16384-row tiles of edge, sender and receiver
  features, three 64-row weight blocks, the prepared bias row, the second layer's weights and its bias row), a load of
  the result tile that nothing uses, and one whole-buffer store of the computed tile. The buffers it reads are left as
  they were; the result's buffer ends holding the computed tile of what the nine held.
-/
import proofs.«408958_j17729624998201_4_alg».proof.Proof.Gen.Kernel.Skeleton
import proofs.«408958_j17729624998201_4_alg».proof.Proof.Gen.Kernel.Launch
import proofs.«408958_j17729624998201_4_alg».proof.Proof.Gen.Kernel.Points
import proofs.«408958_j17729624998201_4_alg».proof.Proof.Gen.Kernel.Frame
import Idealize.ShloMosaic.Lib.Pipeline.Kit
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's accesses: each is its whole buffer -/

abbrev rTile : Rect S16384x64 := Rect.unit (s := S16384x64) ![0, 0] S16384x64.size inb_S16384x64_S16384x64_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rW2 : Rect S32x64 := Rect.unit (s := S32x64) ![0, 0] S32x64.size inb_S32x64_S32x64_0_0
abbrev rB2 : Rect S1x64 := Rect.unit (s := S1x64) ![0, 0] S1x64.size inb_S1x64_S1x64_0_0

/-- What the result's buffer holds after the body, from what the nine input buffers hold: its one store, of the
    computed tile, over the whole buffer. -/
def tileOut (x0 x1 x2 : Vec F S16384x64 .f32) (x3 x4 x5 : Vec F S64x32 .f32) (x6 : Vec F S1x32 .f32)
    (x7 : Vec F S32x64 .f32) (x8 : Vec F S1x64 .f32) : Vec F S16384x64 .f32 :=
  View.canon [⟨rTile, k0_pay1 (View.ld x0 rTile) (View.ld x1 rTile) (View.ld x2 rTile) (View.ld x3 rW1) (View.ld x4 rW1)
    (View.ld x5 rW1) (View.ld x6 rB1) (View.ld x7 rW2) (View.ld x8 rB2)⟩]

/-- The one store covers the buffer. -/
theorem cover_tile (p0 : Vec F S16384x64 .f32) (y : S16384x64.Idx) :
    ∃ pc ∈ ([⟨rTile, p0⟩] : List (View.Piece (Elt F) S16384x64 .f32)), y ∈ pc.1.set :=
  View.cover_of_tiled [⟨rTile, p0⟩] S16384x64.size (by rfl) y

set_option maxHeartbeats 1000000 in
/-- The body on whole buffers: the nine inputs at contents `x0 … x8`, the result's at anything, to the continuation
    with the nine as they were and the result's at `tileOut` of them. -/
theorem sound_kernel (c : Dev nD) (E : Set ℕ) (i : grid0.Coords)
    (arg1 : Memref sig .tc .vmem S16384x64 .f32) (harg1 : arg1.IsWhole) (arg2 : Memref sig .tc .vmem S16384x64 .f32) (harg2 : arg2.IsWhole)
    (arg3 : Memref sig .tc .vmem S16384x64 .f32) (harg3 : arg3.IsWhole) (arg4 : Memref sig .tc .vmem S64x32 .f32) (harg4 : arg4.IsWhole)
    (arg5 : Memref sig .tc .vmem S64x32 .f32) (harg5 : arg5.IsWhole) (arg6 : Memref sig .tc .vmem S64x32 .f32) (harg6 : arg6.IsWhole)
    (arg7 : Memref sig .tc .vmem S1x32 .f32) (harg7 : arg7.IsWhole) (arg8 : Memref sig .tc .vmem S32x64 .f32) (harg8 : arg8.IsWhole)
    (arg9 : Memref sig .tc .vmem S1x64 .f32) (harg9 : arg9.IsWhole) (arg10 : Memref sig .tc .vmem S16384x64 .f32) (harg10 : arg10.IsWhole)
    (x0 x1 x2 : Vec F S16384x64 .f32) (x3 x4 x5 : Vec F S64x32 .f32) (x6 : Vec F S1x32 .f32) (x7 : Vec F S32x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (tileOut x0 x1 x2 x3 x4 x5 x6 x7 x8)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_tile _)

end Cert.Kernel.Body

end
-- ==== Proof.KernelFrame.lean ====
/-
  The word-level program runs to the end without a fault and leaves its arguments as it found them.

  The region is a pipeline of 62 grid points over ten windows. Windows 0, 1, 2 (the tiles of edge, sender and
  receiver features) and window 9 (the result tile) move at every point, and their last tile overhangs the
  arrays, so what their staging buffers hold is not named: of those four nothing is said. Windows 3 to 8 (the three
  weight blocks, the prepared bias row, the second layer's weights and its bias row) are fetched at the first point
  only and read again at every later one; of them the proof says that the body leaves each buffer as it found it.
  The body reads the nine input buffers at whatever they hold and overwrites the result's buffer, so it meets this
  at any contents. An input array is never written, hence ends as the region found it, and no host operation before
  the region writes an argument, hence as launched; the arguments no window stages are not touched at all.
-/
import proofs.«408958_j17729624998201_4_alg».proof.Defs
import proofs.«408958_j17729624998201_4_alg».proof.Proof.Gen.Kernel.Skeleton
import proofs.«408958_j17729624998201_4_alg».proof.Proof.Gen.Kernel.Launch
import proofs.«408958_j17729624998201_4_alg».proof.Proof.Gen.Kernel.Points
import proofs.«408958_j17729624998201_4_alg».proof.Proof.Gen.Kernel.Frame
import proofs.«408958_j17729624998201_4_alg».proof.Proof.Gen.Pre_finite_inputs
import proofs.«408958_j17729624998201_4_alg».proof.Proof.KernelBody
import Idealize.ShloMosaic.Lib.Pipeline.Kit
import Idealize.ShloMosaic.Lib.Pipeline.Frame
import Idealize.ShloMosaic.Lib.Pipeline.FrameBody
import Idealize.ShloMosaic.Lib.Tactic

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- One core's proof data: each window's array as the region finds it; of what the body leaves in a staging buffer,
    nothing for the four windows that move at every point, "as it was handed" for the six fetched once and read
    again at every later point; the invariant the class's, nothing owed, whole shares. -/
def rdat (c : Dev nD) : RDat τ (Elt F) Unit ℕ (UR sig nD τ) ℕ cfg0 c where
  A w := Gen.V m c (Pipeline.arrRef spec0 w)
  after w t Y X := match w with
    | ⟨0, _⟩ => True
    | ⟨1, _⟩ => True
    | ⟨2, _⟩ => True
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => True
  Φ _ := Pipeline.ΦA spec0 c
  q _ := fullShare
  owed _ := 0

/-- The proof data's arrays are the region-entry contents. -/
theorem A_eq (c : Dev nD) (w : Fin cfg0.W) : (rdat m c).A w = Gen.V m c (Pipeline.arrRef spec0 w) := by
  dsimp only [rdat]

/-- Of the four windows that move at every point nothing is asked of what the body leaves. -/
theorem after_free0 (c : Dev nD) (t : Fin cfg0.N) (Y X) : (rdat m c).after 0 t Y X := trivial
theorem after_free1 (c : Dev nD) (t : Fin cfg0.N) (Y X) : (rdat m c).after 1 t Y X := trivial
theorem after_free2 (c : Dev nD) (t : Fin cfg0.N) (Y X) : (rdat m c).after 2 t Y X := trivial
theorem after_free9 (c : Dev nD) (t : Fin cfg0.N) (Y X) : (rdat m c).after 9 t Y X := trivial
/-- A buffer left as it was handed meets the relation of the six windows read again at later points. -/
theorem after_kept3 (c : Dev nD) (t : Fin cfg0.N) (Y) : (rdat m c).after 3 t Y Y := rfl
theorem after_kept4 (c : Dev nD) (t : Fin cfg0.N) (Y) : (rdat m c).after 4 t Y Y := rfl
theorem after_kept5 (c : Dev nD) (t : Fin cfg0.N) (Y) : (rdat m c).after 5 t Y Y := rfl
theorem after_kept6 (c : Dev nD) (t : Fin cfg0.N) (Y) : (rdat m c).after 6 t Y Y := rfl
theorem after_kept7 (c : Dev nD) (t : Fin cfg0.N) (Y) : (rdat m c).after 7 t Y Y := rfl
theorem after_kept8 (c : Dev nD) (t : Fin cfg0.N) (Y) : (rdat m c).after 8 t Y Y := rfl

/-! ## The body obligation, at a generic point and at any contents of the buffers -/

/-- What the body is called with at point `t`: the invariant, what the core owes, and each window's current staging
    buffer at the contents `Y w` it is handed. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9))

/-- What it returns: each buffer at some contents in the window's relation to what was handed. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X)
    ∗ (∃ X, ⌜(rdat m c).after 8 t (Y 8) X⌝ ∗ owns (c : Thread nD τ) (st0_8 t) fullShare X)
    ∗ (∃ X, ⌜(rdat m c).after 9 t (Y 9) X⌝ ∗ owns (c : Thread nD τ) (st0_9 t) fullShare X))

/-- The body at any point, at any contents of the ten buffers: it leaves the nine it reads as they were and the
    result's at the computed tile; the invariant and what the core owes pass through unread. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6, H7, H8, H9⟩
  iapply (Body.sound_kernel c Set.univ (grid0.coords t) _ _ _ _ _ _ _ _ _ _ _ _ _ _ _ _ _ _ _ _
    (Y 0) (Y 1) (Y 2) (Y 3) (Y 4) (Y 5) (Y 6) (Y 7) (Y 8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]
  · iexists (Y 0); isplitr; · ipureintro; exact after_free0 m c t _ _
    iexact H0
  isplitl [H1]
  · iexists (Y 1); isplitr; · ipureintro; exact after_free1 m c t _ _
    iexact H1
  isplitl [H2]
  · iexists (Y 2); isplitr; · ipureintro; exact after_free2 m c t _ _
    iexact H2
  isplitl [H3]
  · iexists (Y 3); isplitr; · ipureintro; exact after_kept3 m c t _
    iexact H3
  isplitl [H4]
  · iexists (Y 4); isplitr; · ipureintro; exact after_kept4 m c t _
    iexact H4
  isplitl [H5]
  · iexists (Y 5); isplitr; · ipureintro; exact after_kept5 m c t _
    iexact H5
  isplitl [H6]
  · iexists (Y 6); isplitr; · ipureintro; exact after_kept6 m c t _
    iexact H6
  isplitl [H7]
  · iexists (Y 7); isplitr; · ipureintro; exact after_kept7 m c t _
    iexact H7
  isplitl [H8]
  · iexists (Y 8); isplitr; · ipureintro; exact after_kept8 m c t _
    iexact H8
  · iexists (Body.tileOut (Y 0) (Y 1) (Y 2) (Y 3) (Y 4) (Y 5) (Y 6) (Y 7) (Y 8)); isplitr; · ipureintro; exact after_free9 m c t _ _
    iexact H9

/-- The library's body obligation, at every point: what the buffers may hold there is not used. -/
theorem body_obligation (c : Dev nD) : (rdat (F := F) m c).BodyObligation (defs₀ (F := F)) Variants.none () Set.univ := fun t Y _ => by
  rw [bigSep_W0, bigSep_W0]
  exact sound_body m c t Y

/-! ## The run and the frame -/

/-- Every array is held whole: an output's share is full by definition, an input's is the one the data lend. -/
theorem share_full (c : Dev nD) (w : Fin cfg0.W) : (rdat m c).share w = fullShare := by
  unfold RDat.share; split <;> rfl

set_option backward.isDefEq.respectTransparency.types false in
/-- At the compiled mesh, for any values, from any memory with zero counters: every weakly fair execution of @main on
    the TensorCores terminates, and in every final state each window's array holds some contents it may hold after
    every write-back (an input's: its contents at the region's entry) and every other unscoped buffer is as the
    region found it. -/
theorem run_main : θ_run defs (onTc (τ := τ) (main (F := F))) (s₀ m ρ) (RDat.FramePost cfg0 (rdat m) (Gen.V m)) :=
  RDat.θ_run_frame cfgs (0 : Fin 1) launch0 defs₀ Variants.none (rdat m) m ρ main
    (body_obligation m) (share_full m) (fun _ _ => rfl) (Gen.V m) (Gen.hmain m Variants.none) (A_eq m) (fun _ _ => rfl)

/-- The frame at any number model: the two arguments a window stages (the edge features, window 0's array; the second
    layer's weights, window 7's) are input arrays, never written, so they end at their contents at the region's entry;
    the six others are no window's array and end as the region found them; and no host operation before the region
    writes an argument. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_arg0 (Pipeline.mem_restRefs_of main_arg0 (by decide) (by decide))).trans (V_main_arg0 m c),
      (RDat.FramePost.arr_in h c 0 rfl).trans ((A_eq m c 0).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (RDat.FramePost.arr_in h c 7 rfl).trans ((A_eq m c 7).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

/-- The claim, at the word-level number model; the precondition is not used. -/
theorem frame : Cert.frame_Kernel := fun m ρ _ => frame_any m ρ

end Cert.Kernel.FrameProof

end
-- ==== Proof.IdealBody.lean ====
/-
  One grid point of the edge kernel: nine whole-buffer loads (three 16384-row tiles of edge, sender and receiver
  features, three 64-row weight blocks, the prepared bias row, the second layer's weights and its bias row), a load of
  the result tile that nothing uses, and one whole-buffer store of the computed tile. The buffers it reads are left as
  they were; the result's buffer ends holding the computed tile of what the nine held.
-/
import proofs.«408958_j17729624998201_4_alg».proof.Proof.Gen.KernelIdeal.Skeleton
import proofs.«408958_j17729624998201_4_alg».proof.Proof.Gen.KernelIdeal.Launch
import proofs.«408958_j17729624998201_4_alg».proof.Proof.Gen.KernelIdeal.Points
import proofs.«408958_j17729624998201_4_alg».proof.Proof.Gen.KernelIdeal.Frame
import Idealize.ShloMosaic.Lib.Pipeline.Kit
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's accesses: each is its whole buffer -/

abbrev rTile : Rect S16384x64 := Rect.unit (s := S16384x64) ![0, 0] S16384x64.size inb_S16384x64_S16384x64_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rW2 : Rect S32x64 := Rect.unit (s := S32x64) ![0, 0] S32x64.size inb_S32x64_S32x64_0_0
abbrev rB2 : Rect S1x64 := Rect.unit (s := S1x64) ![0, 0] S1x64.size inb_S1x64_S1x64_0_0

/-- What the result's buffer holds after the body, from what the nine input buffers hold: its one store, of the
    computed tile, over the whole buffer. -/
def tileOut (x0 x1 x2 : Vec F S16384x64 .f32) (x3 x4 x5 : Vec F S64x32 .f32) (x6 : Vec F S1x32 .f32)
    (x7 : Vec F S32x64 .f32) (x8 : Vec F S1x64 .f32) : Vec F S16384x64 .f32 :=
  View.canon [⟨rTile, k0_pay1 (View.ld x0 rTile) (View.ld x1 rTile) (View.ld x2 rTile) (View.ld x3 rW1) (View.ld x4 rW1)
    (View.ld x5 rW1) (View.ld x6 rB1) (View.ld x7 rW2) (View.ld x8 rB2)⟩]

/-- The one store covers the buffer. -/
theorem cover_tile (p0 : Vec F S16384x64 .f32) (y : S16384x64.Idx) :
    ∃ pc ∈ ([⟨rTile, p0⟩] : List (View.Piece (Elt F) S16384x64 .f32)), y ∈ pc.1.set :=
  View.cover_of_tiled [⟨rTile, p0⟩] S16384x64.size (by rfl) y

set_option maxHeartbeats 1000000 in
/-- The body on whole buffers: the nine inputs at contents `x0 … x8`, the result's at anything, to the continuation
    with the nine as they were and the result's at `tileOut` of them. -/
theorem sound_kernel (c : Dev nD) (E : Set ℕ) (i : grid0.Coords)
    (arg1 : Memref sig .tc .vmem S16384x64 .f32) (harg1 : arg1.IsWhole) (arg2 : Memref sig .tc .vmem S16384x64 .f32) (harg2 : arg2.IsWhole)
    (arg3 : Memref sig .tc .vmem S16384x64 .f32) (harg3 : arg3.IsWhole) (arg4 : Memref sig .tc .vmem S64x32 .f32) (harg4 : arg4.IsWhole)
    (arg5 : Memref sig .tc .vmem S64x32 .f32) (harg5 : arg5.IsWhole) (arg6 : Memref sig .tc .vmem S64x32 .f32) (harg6 : arg6.IsWhole)
    (arg7 : Memref sig .tc .vmem S1x32 .f32) (harg7 : arg7.IsWhole) (arg8 : Memref sig .tc .vmem S32x64 .f32) (harg8 : arg8.IsWhole)
    (arg9 : Memref sig .tc .vmem S1x64 .f32) (harg9 : arg9.IsWhole) (arg10 : Memref sig .tc .vmem S16384x64 .f32) (harg10 : arg10.IsWhole)
    (x0 x1 x2 : Vec F S16384x64 .f32) (x3 x4 x5 : Vec F S64x32 .f32) (x6 : Vec F S1x32 .f32) (x7 : Vec F S32x64 .f32) (x8 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (tileOut x0 x1 x2 x3 x4 x5 x6 x7 x8)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_tile _)

end Cert.KernelIdeal.Body

end
-- ==== Proof.Spec.lean ====
/-
  The edge update of a graph network as ONE function of its arrays, index by index over the extended reals.

  For edge r the inputs are its own 64 features e(r, ·), the 64 features ns(r, ·) of its sender node and nr(r, ·) of its
  receiver node, and the 32 global features g(0, ·). The first layer's weight matrix W1 has 224 rows: rows 0‥63 act on
  the edge's features, 64‥127 on the sender's, 128‥191 on the receiver's and 192‥223 on the global ones. The hidden
  unit c is

      h(r, c) = Σ_k e(r,k)·W1(k,c) + Σ_k ns(r,k)·W1(64+k,c) + Σ_k nr(r,k)·W1(128+k,c) + Σ_k g(0,k)·W1(192+k,c) + b1(c),

  and the result is  out(r, j) = Σ_c max(h(r,c), 0)·W2(c,j) + b2(j).

  Two arrangements of h are compared here. One multiplies the 224 joined features by W1 in a single sum and adds b1;
  the other forms the three 64-term sums, adds them left to right, and then adds the bias b1(c) + Σ_k g(0,k)·W1(192+k,c)
  formed beforehand. They are the same extended real: a sum over 224 = 64 + 64 + 64 + 32 consecutive positions is the
  sum of the four partial sums, and what is left is commutativity and associativity of addition, which hold on the
  extended reals without any finiteness.
-/
import Idealize.ShloMosaic.PureOps.Ideal
import Idealize.ShloMosaic.Lib.ValueIdx
import Mathlib.Algebra.BigOperators.Fin

noncomputable section

namespace Cert.EdgeMlp

open Idealize.ShloMosaic Idealize.ShloMosaic.ValueIdx
open scoped BigOperators

abbrev SEx64 : Shape := ⟨2, ![1000000, 64]⟩
abbrev SNx64 : Shape := ⟨2, ![100000, 64]⟩
abbrev S1x32 : Shape := ⟨2, ![1, 32]⟩
abbrev S224x32 : Shape := ⟨2, ![224, 32]⟩
abbrev S32 : Shape := ⟨1, ![32]⟩
abbrev S32x64 : Shape := ⟨2, ![32, 64]⟩
abbrev S64 : Shape := ⟨1, ![64]⟩

/-- Row k of the weight block that acts on the edge's own features. -/
def rowE (k : Fin 64) : Fin 224 := ⟨k.val, by omega⟩
/-- Row k of the block that acts on the sender's features. -/
def rowS (k : Fin 64) : Fin 224 := ⟨64 + k.val, by omega⟩
/-- Row k of the block that acts on the receiver's features. -/
def rowR (k : Fin 64) : Fin 224 := ⟨128 + k.val, by omega⟩
/-- Row k of the block that acts on the global features. -/
def rowG (k : Fin 32) : Fin 224 := ⟨192 + k.val, by omega⟩

/-- The rectifier: the larger of x and the number the all-zero f32 word denotes. -/
def relu (x : EReal) : EReal := max x (Ideal.ofBits .f32 0x00000000#32)

/-- Hidden unit c of edge r before the rectifier: the four partial products, then the bias. -/
def hidden (e ns nr : SEx64.Idx → EReal) (g : S1x32.Idx → EReal) (W1 : S224x32.Idx → EReal) (b1 : S32.Idx → EReal)
    (r : Fin 1000000) (c : Fin 32) : EReal :=
  (((∑ k : Fin 64, e (ix2 r k) * W1 (ix2 (rowE k) c) + ∑ k : Fin 64, ns (ix2 r k) * W1 (ix2 (rowS k) c))
      + ∑ k : Fin 64, nr (ix2 r k) * W1 (ix2 (rowR k) c))
    + ∑ k : Fin 32, g (ix2 0 k) * W1 (ix2 (rowG k) c)) + b1 (ix1 c)

/-- Feature j of the updated edge r: the second layer applied to the rectified hidden units. -/
def edgeOutAt (e ns nr : SEx64.Idx → EReal) (g : S1x32.Idx → EReal) (W1 : S224x32.Idx → EReal) (b1 : S32.Idx → EReal)
    (W2 : S32x64.Idx → EReal) (b2 : S64.Idx → EReal) (r : Fin 1000000) (j : Fin 64) : EReal :=
  (∑ c : Fin 32, relu (hidden e ns nr g W1 b1 r c) * W2 (ix2 c j)) + b2 (ix1 j)

/-- The updated edge features as an array. -/
def edgeOut (e ns nr : SEx64.Idx → EReal) (g : S1x32.Idx → EReal) (W1 : S224x32.Idx → EReal) (b1 : S32.Idx → EReal)
    (W2 : S32x64.Idx → EReal) (b2 : S64.Idx → EReal) : SEx64.Idx → EReal := fun i =>
  edgeOutAt e ns nr g W1 b1 W2 b2 ⟨(i 0).val, (i 0).isLt⟩ ⟨(i 1).val, (i 1).isLt⟩

theorem edgeOut_apply (e ns nr : SEx64.Idx → EReal) (g : S1x32.Idx → EReal) (W1 : S224x32.Idx → EReal) (b1 : S32.Idx → EReal)
    (W2 : S32x64.Idx → EReal) (b2 : S64.Idx → EReal) (r : Fin 1000000) (j : Fin 64) :
    edgeOut e ns nr g W1 b1 W2 b2 (ix2 r j) = edgeOutAt e ns nr g W1 b1 W2 b2 r j := rfl

/-- Position k of the 224 joined features of one edge: its own, the sender's, the receiver's, the global ones. -/
def joined (e ns nr : Fin 64 → EReal) (g : Fin 32 → EReal) (k : Fin 224) : EReal :=
  if h0 : k.val < 64 then e ⟨k.val, h0⟩
  else if h1 : k.val < 128 then ns ⟨k.val - 64, by omega⟩
  else if h2 : k.val < 192 then nr ⟨k.val - 128, by omega⟩
  else g ⟨k.val - 192, by omega⟩

/-- One sum over the 224 joined positions is the four partial sums, in order. -/
theorem sum_joined (e ns nr : Fin 64 → EReal) (g : Fin 32 → EReal) (W : Fin 224 → EReal) :
    ∑ k : Fin 224, joined e ns nr g k * W k
      = ((∑ k : Fin 64, e k * W (rowE k) + ∑ k : Fin 64, ns k * W (rowS k)) + ∑ k : Fin 64, nr k * W (rowR k))
        + ∑ k : Fin 32, g k * W (rowG k) := by
  have h := Fin.sum_univ_add (M := EReal) (a := 64 + 64 + 64) (b := 32) (fun k : Fin (64 + 64 + 64 + 32) => joined e ns nr g k * W k)
  have h' := Fin.sum_univ_add (M := EReal) (a := 64 + 64) (b := 64)
    (fun k : Fin (64 + 64 + 64) => joined e ns nr g (Fin.castAdd 32 k) * W (Fin.castAdd 32 k))
  have h'' := Fin.sum_univ_add (M := EReal) (a := 64) (b := 64)
    (fun k : Fin (64 + 64) => joined e ns nr g (Fin.castAdd 32 (Fin.castAdd 64 k)) * W (Fin.castAdd 32 (Fin.castAdd 64 k)))
  refine h.trans ?_
  rw [h', h'']
  -- each partial sum's positions land in their own range of the 224, where the joined features are that part's
  congr 1

/-- The bias folded with the global features' product, added after the three per-edge products, is the four products
    and then the bias: addition on the extended reals is commutative and associative. -/
theorem fold_bias (a b c d beta : EReal) : ((a + b) + c) + (beta + d) = (((a + b) + c) + d) + beta := by
  rw [add_comm beta d, ← add_assoc]

abbrev S64x32 : Shape := ⟨2, ![64, 32]⟩
abbrev S1x64 : Shape := ⟨2, ![1, 64]⟩

/-- The same update the way a tiled evaluation forms it: the three 64-row weight blocks as arrays of their own, the
    three per-edge products added left to right, then a bias row prepared beforehand, the rectifier, the second layer
    and its bias given as a one-row matrix. -/
def edgeOutFoldedAt (e ns nr : SEx64.Idx → EReal) (We Ws Wr : S64x32.Idx → EReal) (beff : S1x32.Idx → EReal)
    (W2 : S32x64.Idx → EReal) (b2r : S1x64.Idx → EReal) (r : Fin 1000000) (j : Fin 64) : EReal :=
  (∑ c : Fin 32, relu ((((∑ k : Fin 64, e (ix2 r k) * We (ix2 k c) + ∑ k : Fin 64, ns (ix2 r k) * Ws (ix2 k c))
      + ∑ k : Fin 64, nr (ix2 r k) * Wr (ix2 k c)) + beff (ix2 0 c))) * W2 (ix2 c j)) + b2r (ix2 0 j)

/-- The tiled arrangement as an array. -/
def edgeOutFolded (e ns nr : SEx64.Idx → EReal) (We Ws Wr : S64x32.Idx → EReal) (beff : S1x32.Idx → EReal)
    (W2 : S32x64.Idx → EReal) (b2r : S1x64.Idx → EReal) : SEx64.Idx → EReal := fun i =>
  edgeOutFoldedAt e ns nr We Ws Wr beff W2 b2r ⟨(i 0).val, (i 0).isLt⟩ ⟨(i 1).val, (i 1).isLt⟩

theorem edgeOutFolded_apply (e ns nr : SEx64.Idx → EReal) (We Ws Wr : S64x32.Idx → EReal) (beff : S1x32.Idx → EReal)
    (W2 : S32x64.Idx → EReal) (b2r : S1x64.Idx → EReal) (r : Fin 1000000) (j : Fin 64) :
    edgeOutFolded e ns nr We Ws Wr beff W2 b2r (ix2 r j) = edgeOutFoldedAt e ns nr We Ws Wr beff W2 b2r r j := rfl

/-- When the weight blocks are the corresponding rows of W1, the prepared bias row is b1 plus the global features'
    product, and the one-row matrix is b2, the tiled arrangement is the update itself. -/
theorem edgeOutFolded_eq (e ns nr : SEx64.Idx → EReal) (g : S1x32.Idx → EReal) (W1 : S224x32.Idx → EReal)
    (b1 : S32.Idx → EReal) (W2 : S32x64.Idx → EReal) (b2 : S64.Idx → EReal)
    (We Ws Wr : S64x32.Idx → EReal) (beff : S1x32.Idx → EReal) (b2r : S1x64.Idx → EReal)
    (hWe : ∀ (k : Fin 64) (c : Fin 32), We (ix2 k c) = W1 (ix2 (rowE k) c))
    (hWs : ∀ (k : Fin 64) (c : Fin 32), Ws (ix2 k c) = W1 (ix2 (rowS k) c))
    (hWr : ∀ (k : Fin 64) (c : Fin 32), Wr (ix2 k c) = W1 (ix2 (rowR k) c))
    (hbeff : ∀ c : Fin 32, beff (ix2 0 c) = b1 (ix1 c) + ∑ k : Fin 32, g (ix2 0 k) * W1 (ix2 (rowG k) c))
    (hb2 : ∀ j : Fin 64, b2r (ix2 0 j) = b2 (ix1 j)) :
    edgeOutFolded e ns nr We Ws Wr beff W2 b2r = edgeOut e ns nr g W1 b1 W2 b2 := by
  funext i
  show edgeOutFoldedAt e ns nr We Ws Wr beff W2 b2r _ _ = edgeOutAt e ns nr g W1 b1 W2 b2 _ _
  unfold edgeOutFoldedAt edgeOutAt hidden
  rw [hb2]
  congr 1
  refine Finset.sum_congr rfl fun c _ => ?_
  congr 2
  rw [hbeff, fold_bias]
  simp only [hWe, hWs, hWr]

end Cert.EdgeMlp

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.IdealPayload.lean ====
/-
  What the kernel body stores for one tile, read at one entry, over the extended reals.
-/
import proofs.«408958_j17729624998201_4_alg».proof.Proof.Gen.KernelIdeal.Skeleton
import proofs.«408958_j17729624998201_4_alg».proof.Proof.Spec
import proofs.«408958_j17729624998201_4_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- A first-layer product into the zero accumulator at (p, c): row p of the 16384 × 64 tile against column c of the
    64 × 32 weight block. -/
private theorem layer1_apply (l : Vec Ideal S16384x64 .f32) (r : Vec Ideal S64x32 .f32) (p : Fin 16384) (c : Fin 32) :
    matmul (F := Ideal) (φ₁ := .f32) (φ₂ := .f32) dot_S16384x64_S64x32_S16384x32_1_0_0_1_n_n none l r (constant (F := Ideal) S16384x32 .f32 0x00000000#32) (ix2 p c)
      = ∑ k : Fin 64, l (ix2 p k) * r (ix2 k c) :=
  Cert.DotPlain.matmul_zero_rows_cols (φ₁ := .f32) (φ₂ := .f32) dot_S16384x64_S64x32_S16384x32_1_0_0_1_n_n
    rfl rfl rfl rfl rfl rfl none l r p c

/-- The second-layer product into the zero accumulator at (p, q): row p of a 16384 × 32 tile against column q of the
    32 × 64 weight matrix. -/
private theorem layer2_apply (l : FVec Ideal S16384x32 .f32) (r : Vec Ideal S32x64 .f32) (p : Fin 16384) (q : Fin 64) :
    matmul (F := Ideal) (φ₁ := .f32) (φ₂ := .f32) dot_S16384x32_S32x64_S16384x64_1_0_0_1_n_n none l r (constant (F := Ideal) S16384x64 .f32 0x00000000#32) (ix2 p q)
      = ∑ c : Fin 32, l (ix2 p c) * r (ix2 c q) :=
  Cert.DotPlain.matmul_zero_rows_cols (φ₁ := .f32) (φ₂ := .f32) dot_S16384x32_S32x64_S16384x64_1_0_0_1_n_n
    rfl rfl rfl rfl rfl rfl none l r p q

/-- The rectified hidden tile: the three first-layer products added left to right, the prepared bias row added to
    every row, and the larger of that and zero. It is the left operand of the second-layer product. -/
private def hiddenTile (x0 x1 x2 : Vec Ideal S16384x64 .f32) (x3 x4 x5 : Vec Ideal S64x32 .f32) (x6 : Vec Ideal S1x32 .f32) :
    FVec Ideal S16384x32 .f32 :=
  maximumf
    (addf
      (addf
        (addf
          (matmul (F := Ideal) (φ₁ := .f32) (φ₂ := .f32) dot_S16384x64_S64x32_S16384x32_1_0_0_1_n_n none x0
            (shapeCast S64x32 x3 shapeCasts_S64x32_S64x32) (constant (F := Ideal) S16384x32 .f32 0x00000000#32))
          (matmul (F := Ideal) (φ₁ := .f32) (φ₂ := .f32) dot_S16384x64_S64x32_S16384x32_1_0_0_1_n_n none
            (shapeCast S16384x64 x1 shapeCasts_S16384x64_S16384x64)
            (shapeCast S64x32 x4 shapeCasts_S64x32_S64x32) (constant (F := Ideal) S16384x32 .f32 0x00000000#32)))
        (matmul (F := Ideal) (φ₁ := .f32) (φ₂ := .f32) dot_S16384x64_S64x32_S16384x32_1_0_0_1_n_n none
          (shapeCast S16384x64 x2 shapeCasts_S16384x64_S16384x64)
          (shapeCast S64x32 x5 shapeCasts_S64x32_S64x32) (constant (F := Ideal) S16384x32 .f32 0x00000000#32)))
      (broadcastTo S16384x32 (shapeCast S1x32 x6 shapeCasts_S1x32_S1x32) broadcasts_S1x32_S16384x32))
    (broadcast S16384x32 (Scalar.ofBits (F := Ideal) .f32 0x00000000#32))

/-- Entry (p, c) of the rectified hidden tile: only row p of the three input tiles enters. -/
private theorem hiddenTile_apply (x0 x1 x2 : Vec Ideal S16384x64 .f32) (x3 x4 x5 : Vec Ideal S64x32 .f32)
    (x6 : Vec Ideal S1x32 .f32) (p : Fin 16384) (c : Fin 32) :
    hiddenTile x0 x1 x2 x3 x4 x5 x6 (ix2 p c)
      = Cert.EdgeMlp.relu ((((∑ k : Fin 64, x0 (ix2 p k) * x3 (ix2 k c) + ∑ k : Fin 64, x1 (ix2 p k) * x4 (ix2 k c))
          + ∑ k : Fin 64, x2 (ix2 p k) * x5 (ix2 k c)) + x6 (ix2 0 c))) := by
  unfold hiddenTile
  -- the casts to the same shape are the identity
  rw [shapeCast_self, shapeCast_self, shapeCast_self, shapeCast_self, shapeCast_self, shapeCast_self]
  -- the pointwise operations at (p, c), then each product as its sum and the bias row's one row
  rw [maximumf_apply, addf_apply, addf_apply, addf_apply, layer1_apply, layer1_apply, layer1_apply,
    broadcastTo_1b_ab_apply, broadcast_apply]
  rfl

/-- Entry (p, q) of the tile the body stores: row p of the three 16384-row input tiles against the three weight blocks,
    the prepared bias row, the rectifier, the second layer and its bias row. Only ROW p of the three input tiles enters. -/
theorem pay_apply (x0 x1 x2 : Vec Ideal S16384x64 .f32) (x3 x4 x5 : Vec Ideal S64x32 .f32) (x6 : Vec Ideal S1x32 .f32)
    (x7 : Vec Ideal S32x64 .f32) (x8 : Vec Ideal S1x64 .f32) (p : Fin 16384) (q : Fin 64) :
    k0_pay1 (F := Ideal) x0 x1 x2 x3 x4 x5 x6 x7 x8 (ix2 p q)
      = (∑ c : Fin 32, Cert.EdgeMlp.relu ((((∑ k : Fin 64, x0 (ix2 p k) * x3 (ix2 k c) + ∑ k : Fin 64, x1 (ix2 p k) * x4 (ix2 k c))
          + ∑ k : Fin 64, x2 (ix2 p k) * x5 (ix2 k c)) + x6 (ix2 0 c))) * x7 (ix2 c q)) + x8 (ix2 0 q) := by
  -- the stored tile is the second-layer product of the rectified hidden tile, plus the second bias row on every row
  have e : k0_pay1 (F := Ideal) x0 x1 x2 x3 x4 x5 x6 x7 x8
      = addf
          (matmul (F := Ideal) (φ₁ := .f32) (φ₂ := .f32) dot_S16384x32_S32x64_S16384x64_1_0_0_1_n_n none (hiddenTile x0 x1 x2 x3 x4 x5 x6) x7
            (constant (F := Ideal) S16384x64 .f32 0x00000000#32))
          (broadcastTo S16384x64 (shapeCast S1x64 x8 shapeCasts_S1x64_S1x64) broadcasts_S1x64_S16384x64) := rfl
  rw [e, addf_apply, layer2_apply, shapeCast_self, broadcastTo_1b_ab_apply]
  simp only [hiddenTile_apply]

/-- Two triples of input tiles that agree on row p give the same entry (p, q) of the stored tile: the entry is a
    function of row p of each input tile and of nothing else in them. -/
theorem pay_row_congr (x0 x0' x1 x1' x2 x2' : Vec Ideal S16384x64 .f32) (x3 x4 x5 : Vec Ideal S64x32 .f32)
    (x6 : Vec Ideal S1x32 .f32) (x7 : Vec Ideal S32x64 .f32) (x8 : Vec Ideal S1x64 .f32) (p : Fin 16384) (q : Fin 64)
    (h0 : ∀ k : Fin 64, x0 (ix2 p k) = x0' (ix2 p k)) (h1 : ∀ k : Fin 64, x1 (ix2 p k) = x1' (ix2 p k))
    (h2 : ∀ k : Fin 64, x2 (ix2 p k) = x2' (ix2 p k)) :
    k0_pay1 (F := Ideal) x0 x1 x2 x3 x4 x5 x6 x7 x8 (ix2 p q)
      = k0_pay1 (F := Ideal) x0' x1' x2' x3 x4 x5 x6 x7 x8 (ix2 p q) := by
  rw [pay_apply, pay_apply]
  -- under each 64-term sum the factor read from an input tile lies in row p, where the two triples agree
  simp only [h0, h1, h2]

end Cert.KernelIdeal.Payload

end
-- ==== Proof.IdealRun.lean ====
/-
  The idealized kernel program's run, with what every staging buffer holds named.

  The 1,000,000 edges are cut into 62 tiles of 16384 rows; the last tile holds 576 rows of the arrays and its other
  rows lie past the arrays' end. A fetch of such a tile first overwrites the whole staging buffer with contents nothing
  names and then lands the rows inside the array; a write-back writes only the rows inside the array. So the proof data
  name the three input tiles on the rows inside the array (filled out with the zero word elsewhere, a choice nothing
  reads), and the result tile as the computed tile of those: over the extended reals row p of the computed tile
  depends on row p of the three input tiles only (each matrix product is row by row), so on the rows inside the array
  the result tile is the same whatever lies past the arrays' end in the input buffers — which is all the obligation of
  a cut window asks.
-/
import proofs.«408958_j17729624998201_4_alg».proof.Defs
import proofs.«408958_j17729624998201_4_alg».proof.Proof.IdealBody
import proofs.«408958_j17729624998201_4_alg».proof.Proof.Gen.Pre_finite_inputs
import proofs.«408958_j17729624998201_4_alg».proof.Proof.IdealPayload
import Idealize.ShloMosaic.Lib.Pipeline.Value
import Idealize.ShloMosaic.Lib.ValueIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The computed tile is the payload -/

theorem zero_offsets : (![0, 0] : Fin 2 → Nat) = fun _ => 0 := funext fun a => by fin_cases a <;> rfl

/-- One store over the whole buffer leaves its payload, and a load over a whole buffer reads its contents. -/
theorem tileOut_eq (x0 x1 x2 : Vec Ideal S16384x64 .f32) (x3 x4 x5 : Vec Ideal S64x32 .f32) (x6 : Vec Ideal S1x32 .f32)
    (x7 : Vec Ideal S32x64 .f32) (x8 : Vec Ideal S1x64 .f32) :
    tileOut (F := Ideal) x0 x1 x2 x3 x4 x5 x6 x7 x8 = k0_pay1 (F := Ideal) x0 x1 x2 x3 x4 x5 x6 x7 x8 := by
  unfold tileOut
  rw [View.canon_unit_zero zero_offsets]
  simp only [View.ld_unit_zero (S := S16384x64) zero_offsets, View.ld_unit_zero (S := S64x32) zero_offsets,
    View.ld_unit_zero (S := S1x32) zero_offsets, View.ld_unit_zero (S := S32x64) zero_offsets,
    View.ld_unit_zero (S := S1x64) zero_offsets]

/-- Entry (p, q) of the computed tile reads row p of the three input tiles only. -/
theorem tileOut_row_congr (x0 x0' x1 x1' x2 x2' : Vec Ideal S16384x64 .f32) (x3 x4 x5 : Vec Ideal S64x32 .f32)
    (x6 : Vec Ideal S1x32 .f32) (x7 : Vec Ideal S32x64 .f32) (x8 : Vec Ideal S1x64 .f32) (p : Fin 16384) (q : Fin 64)
    (h0 : ∀ k : Fin 64, x0 (ix2 p k) = x0' (ix2 p k)) (h1 : ∀ k : Fin 64, x1 (ix2 p k) = x1' (ix2 p k))
    (h2 : ∀ k : Fin 64, x2 (ix2 p k) = x2' (ix2 p k)) :
    tileOut (F := Ideal) x0 x1 x2 x3 x4 x5 x6 x7 x8 (ix2 p q) = tileOut (F := Ideal) x0' x1' x2' x3 x4 x5 x6 x7 x8 (ix2 p q) := by
  rw [tileOut_eq, tileOut_eq]
  exact Cert.KernelIdeal.Payload.pay_row_congr x0 x0' x1 x1' x2 x2' x3 x4 x5 x6 x7 x8 p q h0 h1 h2

/-! ## The proof data -/

/-- The word written past the arrays' end in the named contents of a cut tile: nothing reads it. -/
abbrev filler : S16384x64.Idx → Elt Ideal .f32 := fun _ => Scalar.ofBits (F := Ideal) .f32 0#32

/-- The edge, sender and receiver tiles at point `t`: the rows inside the array, the filler elsewhere. -/
def tile0 (c : Dev nD) (t : Fin cfg0.N) : Vec Ideal S16384x64 .f32 := (cfg0.win 0).fill (cfg0.grid.coords t) filler (iblk m c 0 t)
def tile1 (c : Dev nD) (t : Fin cfg0.N) : Vec Ideal S16384x64 .f32 := (cfg0.win 1).fill (cfg0.grid.coords t) filler (iblk m c 1 t)
def tile2 (c : Dev nD) (t : Fin cfg0.N) : Vec Ideal S16384x64 .f32 := (cfg0.win 2).fill (cfg0.grid.coords t) filler (iblk m c 2 t)

/-- The proof data of the one pipeline on core `c`: the arrays as the region finds them; after the body at point `t`
    the three cut input tiles at `tile0`, `tile1`, `tile2`, the six whole inputs at their blocks, the result tile at the
    computed tile of those; the class invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => tile0 m c t
    | ⟨1, _⟩ => tile1 m c t
    | ⟨2, _⟩ => tile2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tileOut (F := Ideal) (tile0 m c t) (tile1 m c t) (tile2 m c t) (iblk m c 3 t) (iblk m c 4 t) (iblk m c 5 t)
        (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tile0 m c t := by dsimp only [dats]
theorem after0_1 (c : Dev nD) (t : Fin cfg0.N) : (dats m 0 c).after 1 t = tile1 m c t := by dsimp only [dats]
theorem after0_2 (c : Dev nD) (t : Fin cfg0.N) : (dats m 0 c).after 2 t = tile2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = tileOut (F := Ideal) (tile0 m c t) (tile1 m c t) (tile2 m c t) (iblk m c 3 t) (iblk m c 4 t) (iblk m c 5 t)
        (iblk m c 6 t) (iblk m c 7 t) (iblk m c 8 t) := by dsimp only [dats]

/-- A cut input tile is fetched at every point: its buffer holds the rows inside the array and anything elsewhere. -/
theorem before0_0 (c : Dev nD) (t : Fin cfg0.N) (d) :
    (dats m 0 c).before 0 t d = (cfg0.win 0).fill (cfg0.grid.coords t) d (iblk m c 0 t) := by
  rw [Dat.before_fetched _ 0 t (fetch0_0 t)]; unfold Dat.fetched Dat.blockOf iblk; rw [A_eq]
theorem before0_1 (c : Dev nD) (t : Fin cfg0.N) (d) :
    (dats m 0 c).before 1 t d = (cfg0.win 1).fill (cfg0.grid.coords t) d (iblk m c 1 t) := by
  rw [Dat.before_fetched _ 1 t (fetch0_1 t)]; unfold Dat.fetched Dat.blockOf iblk; rw [A_eq]
theorem before0_2 (c : Dev nD) (t : Fin cfg0.N) (d) :
    (dats m 0 c).before 2 t d = (cfg0.win 2).fill (cfg0.grid.coords t) d (iblk m c 2 t) := by
  rw [Dat.before_fetched _ 2 t (fetch0_2 t)]; unfold Dat.fetched Dat.blockOf iblk; rw [A_eq]
/-- A whole input's buffer holds its block at every point, fetched there or not. -/
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The rows inside the array do not see what lies past its end -/

/-- Every tile spans the 64 columns: the cut is along the rows only. -/
theorem xsize_cols : ∀ t : Fin cfg0.N, (cfg0.win 0).xsize (cfg0.grid.coords t) 1 = 64 :=
  (by decide +kernel : ∀ t : Fin grid0.N, win0_0.xsize (grid0.coords t) 1 = 64)

/-- An entry of a filled-out tile on a row inside the array does not depend on what fills it out. -/
theorem fill_row0 (t : Fin cfg0.N) (d d' : S16384x64.Idx → Elt Ideal .f32)
    (g : ((cfg0.win 0).xblock (cfg0.grid.coords t)).Idx → Elt Ideal .f32) (p : Fin 16384) (k : Fin 64)
    (hp : p.val < (cfg0.win 0).xsize (cfg0.grid.coords t) 0) :
    (cfg0.win 0).fill (cfg0.grid.coords t) d g (ix2 p k) = (cfg0.win 0).fill (cfg0.grid.coords t) d' g (ix2 p k) := by
  have hm : (cfg0.win 0).moved (cfg0.grid.coords t) (ix2 p k) = true := by
    rw [Window.moved_iff]
    intro a
    match a with
    | ⟨0, _⟩ => exact hp
    | ⟨1, _⟩ => exact (xsize_cols t).symm ▸ k.isLt
  unfold Window.fill
  rw [dif_pos hm, dif_pos hm]
theorem fill_row1 (t : Fin cfg0.N) (d d' : S16384x64.Idx → Elt Ideal .f32)
    (g : ((cfg0.win 1).xblock (cfg0.grid.coords t)).Idx → Elt Ideal .f32) (p : Fin 16384) (k : Fin 64)
    (hp : p.val < (cfg0.win 0).xsize (cfg0.grid.coords t) 0) :
    (cfg0.win 1).fill (cfg0.grid.coords t) d g (ix2 p k) = (cfg0.win 1).fill (cfg0.grid.coords t) d' g (ix2 p k) := by
  have hm : (cfg0.win 1).moved (cfg0.grid.coords t) (ix2 p k) = true := by
    rw [Window.moved_iff]
    intro a
    match a with
    | ⟨0, _⟩ => exact hp
    | ⟨1, _⟩ => exact (xsize_cols t).symm ▸ k.isLt
  unfold Window.fill
  rw [dif_pos hm, dif_pos hm]
theorem fill_row2 (t : Fin cfg0.N) (d d' : S16384x64.Idx → Elt Ideal .f32)
    (g : ((cfg0.win 2).xblock (cfg0.grid.coords t)).Idx → Elt Ideal .f32) (p : Fin 16384) (k : Fin 64)
    (hp : p.val < (cfg0.win 0).xsize (cfg0.grid.coords t) 0) :
    (cfg0.win 2).fill (cfg0.grid.coords t) d g (ix2 p k) = (cfg0.win 2).fill (cfg0.grid.coords t) d' g (ix2 p k) := by
  have hm : (cfg0.win 2).moved (cfg0.grid.coords t) (ix2 p k) = true := by
    rw [Window.moved_iff]
    intro a
    match a with
    | ⟨0, _⟩ => exact hp
    | ⟨1, _⟩ => exact (xsize_cols t).symm ▸ k.isLt
  unfold Window.fill
  rw [dif_pos hm, dif_pos hm]

/-- On the rows inside the array the computed tile is the same whatever fills out the three input tiles. -/
theorem cut_tileOut (c : Dev nD) (t : Fin cfg0.N) (d0 d1 d2 : S16384x64.Idx → Elt Ideal .f32) :
    (cfg0.win 9).cut (cfg0.grid.coords t)
        (tileOut (F := Ideal) ((cfg0.win 0).fill (cfg0.grid.coords t) d0 (iblk m c 0 t)) ((cfg0.win 1).fill (cfg0.grid.coords t) d1 (iblk m c 1 t))
          ((cfg0.win 2).fill (cfg0.grid.coords t) d2 (iblk m c 2 t)) (iblk m c 3 t) (iblk m c 4 t) (iblk m c 5 t) (iblk m c 6 t) (iblk m c 7 t) (iblk m c 8 t))
      = (cfg0.win 9).cut (cfg0.grid.coords t) ((dats m 0 c).after 9 t) := by
  rw [after0_9]
  funext y
  have h0 : (y 0).val < (cfg0.win 0).xsize (cfg0.grid.coords t) 0 := (y 0).isLt
  have h1 : (y 1).val < 64 := (xsize_cols t) ▸ (y 1).isLt
  have h0' : (y 0).val < 16384 := Nat.lt_of_lt_of_le h0 ((cfg0.win 0).xsize_le (cfg0.grid.coords t) 0)
  have e : (cfg0.win 9).xinj (cfg0.grid.coords t) y = (ix2 (⟨(y 0).val, h0'⟩ : Fin 16384) (⟨(y 1).val, h1⟩ : Fin 64) : S16384x64.Idx) :=
    funext fun a => Fin.ext (by match a with | ⟨0, _⟩ => rfl | ⟨1, _⟩ => rfl)
  show tileOut (F := Ideal) _ _ _ _ _ _ _ _ _ ((cfg0.win 9).xinj (cfg0.grid.coords t) y)
    = tileOut (F := Ideal) _ _ _ _ _ _ _ _ _ ((cfg0.win 9).xinj (cfg0.grid.coords t) y)
  rw [e]
  exact tileOut_row_congr _ _ _ _ _ _ _ _ _ _ _ _ _ _
    (fun k => fill_row0 t d0 filler (iblk m c 0 t) _ k h0) (fun k => fill_row1 t d1 filler (iblk m c 1 t) _ k h0)
    (fun k => fill_row2 t d2 filler (iblk m c 2 t) _ k h0)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns: a cut window's buffer stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare ((cfg0.win 9).fill (cfg0.grid.coords t) d ((cfg0.win 9).cut (cfg0.grid.coords t) ((dats m 0 c).after 9 t)))))

/-- The body at any point: the nine inputs' buffers hold their tiles and blocks, so the body's triple applies; what it
    leaves agrees with the named contents on the rows inside the array. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel (F := Ideal) c Set.univ (grid0.coords t) _ _ _ _ _ _ _ _ _ _ _ _ _ _ _ _ _ _ _ _
    ((cfg0.win 0).fill (cfg0.grid.coords t) d0 (iblk m c 0 t)) ((cfg0.win 1).fill (cfg0.grid.coords t) d1 (iblk m c 1 t))
    ((cfg0.win 2).fill (cfg0.grid.coords t) d2 (iblk m c 2 t)) (iblk m c 3 t) (iblk m c 4 t) (iblk m c 5 t) (iblk m c 6 t)
    (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    rw [show (cfg0.win 0).cut (cfg0.grid.coords t) (tile0 m c t) = iblk m c 0 t from (cfg0.win 0).cut_fill _ _ _]
    iexact H0
  isplitl [H1]
  · iexists d1
    rw [show (cfg0.win 1).cut (cfg0.grid.coords t) (tile1 m c t) = iblk m c 1 t from (cfg0.win 1).cut_fill _ _ _]
    iexact H1
  isplitl [H2]
  · iexists d2
    rw [show (cfg0.win 2).cut (cfg0.grid.coords t) (tile2 m c t) = iblk m c 2 t from (cfg0.win 2).cut_fill _ _ _]
    iexact H2
  isplitl [H3]; · iexact H3
  isplitl [H4]; · iexact H4
  isplitl [H5]; · iexact H5
  isplitl [H6]; · iexact H6
  isplitl [H7]; · iexact H7
  isplitl [H8]; · iexact H8
  iexists _
  rw [← cut_tileOut m c t d0 d1 d2, Window.fill_cut]
  iexact H9

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ends at what the proof data compute and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run, read at the argument arrays. -/
theorem frame : Cert.frame_KernelIdeal := fun m ρ _ => frame_of m ρ (dats m) (A_eq m) (run_main m ρ)

end Cert.KernelIdeal.Run

end
-- ==== Proof.IdealValue.lean ====
/-
  What the result array holds after the idealized kernel program's run, as one function of the arrays the kernel region
  reads.

  Point t of the 62 writes back rows 16384·t … of the result: 16384 rows, or the 576 rows that are left at the last
  point. Row p of the tile it writes is computed from row p of the three input tiles, which are rows 16384·t + p of the
  edge, sender and receiver arrays, and from the whole weight blocks and bias rows. So every written tile is the
  corresponding block of ONE array, the update in its tiled arrangement, and the tiles cover the result.
-/
import proofs.«408958_j17729624998201_4_alg».proof.Defs
import proofs.«408958_j17729624998201_4_alg».proof.Proof.IdealRun
import proofs.«408958_j17729624998201_4_alg».proof.Proof.IdealPayload
import proofs.«408958_j17729624998201_4_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Body Cert.KernelIdeal.Run
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ) (ρ : Dev nD → PrngReg)

/-! ## The arrays the region reads, each at its literal type -/

abbrev arrE (c : Dev nD) : FVec Ideal S1000000x64 .f32 := V m c main_arg1
abbrev arrS (c : Dev nD) : FVec Ideal S1000000x64 .f32 := V m c main_v4
abbrev arrR (c : Dev nD) : FVec Ideal S1000000x64 .f32 := V m c main_v5
abbrev arrWe (c : Dev nD) : FVec Ideal S64x32 .f32 := V m c main_v6
abbrev arrWs (c : Dev nD) : FVec Ideal S64x32 .f32 := V m c main_v7
abbrev arrWr (c : Dev nD) : FVec Ideal S64x32 .f32 := V m c main_v8
abbrev arrB1 (c : Dev nD) : FVec Ideal S1x32 .f32 := V m c main_v12
abbrev arrW2 (c : Dev nD) : FVec Ideal S32x64 .f32 := V m c main_arg5
abbrev arrB2 (c : Dev nD) : FVec Ideal S1x64 .f32 := V m c main_v13

/-- The update in its tiled arrangement, of the arrays the region reads. -/
def tiled (c : Dev nD) : FVec Ideal S1000000x64 .f32 :=
  Cert.EdgeMlp.edgeOutFolded (arrE m c) (arrS m c) (arrR m c) (arrWe m c) (arrWs m c) (arrWr m c) (arrB1 m c) (arrW2 m c) (arrB2 m c)

/-! ## The schedule, decided over the grid -/

/-- Tile t of an edge array starts at row 16384·t and column 0, -/
theorem index_tiles : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_9.index t 0 = t.val ∧ win0_9.index t 1 = 0 :=
  (by decide +kernel : ∀ t : Fin grid0.N, _)
/-- holds the rows of the array from there on, at most 16384, -/
theorem xsize_rows : ∀ t : Fin cfg0.N, win0_0.xsize (grid0.coords t) 0 = min 16384 (1000000 - 16384 * t.val)
    ∧ win0_9.xsize (grid0.coords t) 0 = min 16384 (1000000 - 16384 * t.val) ∧ win0_9.xsize (grid0.coords t) 1 = 64 :=
  (by decide +kernel : ∀ t : Fin grid0.N, _)
/-- and the whole blocks are at the arrays' origin. -/
theorem index_whole : ∀ t : Fin cfg0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) :=
  (by decide +kernel : ∀ t : Fin grid0.N, _)

/-! ## Blocks read back to an array: the index arithmetic, over any array -/

/-- Row p, inside the array, of tile t of an array of 1,000,000 rows, filled out with anything, is the array's row
    16384·t + p. -/
theorem read_tile0 (A : FVec Ideal S1000000x64 .f32) (t : Fin cfg0.N) (d : S16384x64.Idx → Elt Ideal .f32)
    (p : Fin 16384) (k : Fin 64) (hp : p.val < win0_0.xsize (grid0.coords t) 0) (r : Fin 1000000) (hr : r.val = 16384 * t.val + p.val) :
    (cfg0.win 0).fill (cfg0.grid.coords t) d ((win0_0.blk t).view.read (Elt Ideal) A) (ix2 p k) = A (ix2 r k) := by
  have hk : k.val < win0_0.xsize (grid0.coords t) 1 := (xsize_cols t).symm ▸ k.isLt
  have e : (ix2 p k : S16384x64.Idx) = win0_0.xinj (grid0.coords t) (fun a => match a with | ⟨0, _⟩ => ⟨p.val, hp⟩ | ⟨1, _⟩ => ⟨k.val, hk⟩) :=
    funext fun a => Fin.ext (by match a with | ⟨0, _⟩ => rfl | ⟨1, _⟩ => rfl)
  rw [e]
  refine (Window.fill_xinj _ _ _ _ _).trans ?_
  show A ((win0_0.blk t).view.emb _) = A (ix2 r k)
  refine congrArg A (funext fun a => Fin.ext ?_)
  match a with
  | ⟨0, _⟩ =>
    show win0_0.index t 0 * 16384 + 1 * p.val = r.val
    rw [(index_tiles t).1, hr]; omega
  | ⟨1, _⟩ =>
    show win0_0.index t 1 * 64 + 1 * k.val = k.val
    rw [(index_tiles t).2.1]; omega
theorem read_tile1 (A : FVec Ideal S1000000x64 .f32) (t : Fin cfg0.N) (d : S16384x64.Idx → Elt Ideal .f32)
    (p : Fin 16384) (k : Fin 64) (hp : p.val < win0_1.xsize (grid0.coords t) 0) (r : Fin 1000000) (hr : r.val = 16384 * t.val + p.val) :
    (cfg0.win 1).fill (cfg0.grid.coords t) d ((win0_1.blk t).view.read (Elt Ideal) A) (ix2 p k) = A (ix2 r k) := by
  have hk : k.val < win0_1.xsize (grid0.coords t) 1 := (xsize_cols t).symm ▸ k.isLt
  have e : (ix2 p k : S16384x64.Idx) = win0_1.xinj (grid0.coords t) (fun a => match a with | ⟨0, _⟩ => ⟨p.val, hp⟩ | ⟨1, _⟩ => ⟨k.val, hk⟩) :=
    funext fun a => Fin.ext (by match a with | ⟨0, _⟩ => rfl | ⟨1, _⟩ => rfl)
  rw [e]
  refine (Window.fill_xinj _ _ _ _ _).trans ?_
  show A ((win0_1.blk t).view.emb _) = A (ix2 r k)
  refine congrArg A (funext fun a => Fin.ext ?_)
  match a with
  | ⟨0, _⟩ =>
    show win0_1.index t 0 * 16384 + 1 * p.val = r.val
    rw [(index_tiles t).2.2.1, hr]; omega
  | ⟨1, _⟩ =>
    show win0_1.index t 1 * 64 + 1 * k.val = k.val
    rw [(index_tiles t).2.2.2.1]; omega
theorem read_tile2 (A : FVec Ideal S1000000x64 .f32) (t : Fin cfg0.N) (d : S16384x64.Idx → Elt Ideal .f32)
    (p : Fin 16384) (k : Fin 64) (hp : p.val < win0_2.xsize (grid0.coords t) 0) (r : Fin 1000000) (hr : r.val = 16384 * t.val + p.val) :
    (cfg0.win 2).fill (cfg0.grid.coords t) d ((win0_2.blk t).view.read (Elt Ideal) A) (ix2 p k) = A (ix2 r k) := by
  have hk : k.val < win0_2.xsize (grid0.coords t) 1 := (xsize_cols t).symm ▸ k.isLt
  have e : (ix2 p k : S16384x64.Idx) = win0_2.xinj (grid0.coords t) (fun a => match a with | ⟨0, _⟩ => ⟨p.val, hp⟩ | ⟨1, _⟩ => ⟨k.val, hk⟩) :=
    funext fun a => Fin.ext (by match a with | ⟨0, _⟩ => rfl | ⟨1, _⟩ => rfl)
  rw [e]
  refine (Window.fill_xinj _ _ _ _ _).trans ?_
  show A ((win0_2.blk t).view.emb _) = A (ix2 r k)
  refine congrArg A (funext fun a => Fin.ext ?_)
  match a with
  | ⟨0, _⟩ =>
    show win0_2.index t 0 * 16384 + 1 * p.val = r.val
    rw [(index_tiles t).2.2.2.2.1, hr]; omega
  | ⟨1, _⟩ =>
    show win0_2.index t 1 * 64 + 1 * k.val = k.val
    rw [(index_tiles t).2.2.2.2.2.1]; omega

/-- A block that is the whole array reads the array. -/
theorem read_whole3 (X : FVec Ideal S64x32 .f32) (t : Fin cfg0.N) (a : Fin 64) (b : Fin 32) :
    (win0_3.blk t).view.read (Elt Ideal) X (ix2 a b) = X (ix2 a b) := by
  show X ((win0_3.blk t).view.emb (ix2 a b)) = X (ix2 a b)
  refine congrArg X (funext fun x => Fin.ext ?_)
  match x with
  | ⟨0, _⟩ =>
    show win0_3.index t 0 * 64 + 1 * a.val = a.val
    rw [(index_whole t).1.1]; omega
  | ⟨1, _⟩ =>
    show win0_3.index t 1 * 32 + 1 * b.val = b.val
    rw [(index_whole t).1.2]; omega
theorem read_whole4 (X : FVec Ideal S64x32 .f32) (t : Fin cfg0.N) (a : Fin 64) (b : Fin 32) :
    (win0_4.blk t).view.read (Elt Ideal) X (ix2 a b) = X (ix2 a b) := by
  show X ((win0_4.blk t).view.emb (ix2 a b)) = X (ix2 a b)
  refine congrArg X (funext fun x => Fin.ext ?_)
  match x with
  | ⟨0, _⟩ =>
    show win0_4.index t 0 * 64 + 1 * a.val = a.val
    rw [(index_whole t).2.1.1]; omega
  | ⟨1, _⟩ =>
    show win0_4.index t 1 * 32 + 1 * b.val = b.val
    rw [(index_whole t).2.1.2]; omega
theorem read_whole5 (X : FVec Ideal S64x32 .f32) (t : Fin cfg0.N) (a : Fin 64) (b : Fin 32) :
    (win0_5.blk t).view.read (Elt Ideal) X (ix2 a b) = X (ix2 a b) := by
  show X ((win0_5.blk t).view.emb (ix2 a b)) = X (ix2 a b)
  refine congrArg X (funext fun x => Fin.ext ?_)
  match x with
  | ⟨0, _⟩ =>
    show win0_5.index t 0 * 64 + 1 * a.val = a.val
    rw [(index_whole t).2.2.1.1]; omega
  | ⟨1, _⟩ =>
    show win0_5.index t 1 * 32 + 1 * b.val = b.val
    rw [(index_whole t).2.2.1.2]; omega
theorem read_whole6 (X : FVec Ideal S1x32 .f32) (t : Fin cfg0.N) (a : Fin 1) (b : Fin 32) :
    (win0_6.blk t).view.read (Elt Ideal) X (ix2 a b) = X (ix2 a b) := by
  show X ((win0_6.blk t).view.emb (ix2 a b)) = X (ix2 a b)
  refine congrArg X (funext fun x => Fin.ext ?_)
  match x with
  | ⟨0, _⟩ =>
    show win0_6.index t 0 * 1 + 1 * a.val = a.val
    rw [(index_whole t).2.2.2.1.1]; omega
  | ⟨1, _⟩ =>
    show win0_6.index t 1 * 32 + 1 * b.val = b.val
    rw [(index_whole t).2.2.2.1.2]; omega
theorem read_whole7 (X : FVec Ideal S32x64 .f32) (t : Fin cfg0.N) (a : Fin 32) (b : Fin 64) :
    (win0_7.blk t).view.read (Elt Ideal) X (ix2 a b) = X (ix2 a b) := by
  show X ((win0_7.blk t).view.emb (ix2 a b)) = X (ix2 a b)
  refine congrArg X (funext fun x => Fin.ext ?_)
  match x with
  | ⟨0, _⟩ =>
    show win0_7.index t 0 * 32 + 1 * a.val = a.val
    rw [(index_whole t).2.2.2.2.1.1]; omega
  | ⟨1, _⟩ =>
    show win0_7.index t 1 * 64 + 1 * b.val = b.val
    rw [(index_whole t).2.2.2.2.1.2]; omega
theorem read_whole8 (X : FVec Ideal S1x64 .f32) (t : Fin cfg0.N) (a : Fin 1) (b : Fin 64) :
    (win0_8.blk t).view.read (Elt Ideal) X (ix2 a b) = X (ix2 a b) := by
  show X ((win0_8.blk t).view.emb (ix2 a b)) = X (ix2 a b)
  refine congrArg X (funext fun x => Fin.ext ?_)
  match x with
  | ⟨0, _⟩ =>
    show win0_8.index t 0 * 1 + 1 * a.val = a.val
    rw [(index_whole t).2.2.2.2.2.1]; omega
  | ⟨1, _⟩ =>
    show win0_8.index t 1 * 64 + 1 * b.val = b.val
    rw [(index_whole t).2.2.2.2.2.2]; omega

/-! ## The point's blocks are blocks of the arrays the region reads -/

theorem iblk0_eq (c : Dev nD) (t : Fin cfg0.N) : iblk m c 0 t = (win0_0.blk t).view.read (Elt Ideal) (arrE m c) := rfl
theorem iblk1_eq (c : Dev nD) (t : Fin cfg0.N) : iblk m c 1 t = (win0_1.blk t).view.read (Elt Ideal) (arrS m c) := rfl
theorem iblk2_eq (c : Dev nD) (t : Fin cfg0.N) : iblk m c 2 t = (win0_2.blk t).view.read (Elt Ideal) (arrR m c) := rfl
theorem iblk3_eq (c : Dev nD) (t : Fin cfg0.N) : iblk m c 3 t = (win0_3.blk t).view.read (Elt Ideal) (arrWe m c) := rfl
theorem iblk4_eq (c : Dev nD) (t : Fin cfg0.N) : iblk m c 4 t = (win0_4.blk t).view.read (Elt Ideal) (arrWs m c) := rfl
theorem iblk5_eq (c : Dev nD) (t : Fin cfg0.N) : iblk m c 5 t = (win0_5.blk t).view.read (Elt Ideal) (arrWr m c) := rfl
theorem iblk6_eq (c : Dev nD) (t : Fin cfg0.N) : iblk m c 6 t = (win0_6.blk t).view.read (Elt Ideal) (arrB1 m c) := rfl
theorem iblk7_eq (c : Dev nD) (t : Fin cfg0.N) : iblk m c 7 t = (win0_7.blk t).view.read (Elt Ideal) (arrW2 m c) := rfl
theorem iblk8_eq (c : Dev nD) (t : Fin cfg0.N) : iblk m c 8 t = (win0_8.blk t).view.read (Elt Ideal) (arrB2 m c) := rfl

theorem tile0_apply (c : Dev nD) (t : Fin cfg0.N) (p : Fin 16384) (k : Fin 64) (hp : p.val < win0_0.xsize (grid0.coords t) 0)
    (r : Fin 1000000) (hr : r.val = 16384 * t.val + p.val) :
    tile0 m c t (ix2 p k) = arrE m c (ix2 r k) := by
  unfold tile0
  rw [iblk0_eq]
  exact read_tile0 (arrE m c) t filler p k hp r hr
theorem tile1_apply (c : Dev nD) (t : Fin cfg0.N) (p : Fin 16384) (k : Fin 64) (hp : p.val < win0_1.xsize (grid0.coords t) 0)
    (r : Fin 1000000) (hr : r.val = 16384 * t.val + p.val) :
    tile1 m c t (ix2 p k) = arrS m c (ix2 r k) := by
  unfold tile1
  rw [iblk1_eq]
  exact read_tile1 (arrS m c) t filler p k hp r hr
theorem tile2_apply (c : Dev nD) (t : Fin cfg0.N) (p : Fin 16384) (k : Fin 64) (hp : p.val < win0_2.xsize (grid0.coords t) 0)
    (r : Fin 1000000) (hr : r.val = 16384 * t.val + p.val) :
    tile2 m c t (ix2 p k) = arrR m c (ix2 r k) := by
  unfold tile2
  rw [iblk2_eq]
  exact read_tile2 (arrR m c) t filler p k hp r hr

theorem iblk3_apply (c : Dev nD) (t : Fin cfg0.N) (a : Fin 64) (b : Fin 32) :
    iblk m c 3 t (ix2 a b) = arrWe m c (ix2 a b) := by
  rw [iblk3_eq]
  exact read_whole3 (arrWe m c) t a b
theorem iblk4_apply (c : Dev nD) (t : Fin cfg0.N) (a : Fin 64) (b : Fin 32) :
    iblk m c 4 t (ix2 a b) = arrWs m c (ix2 a b) := by
  rw [iblk4_eq]
  exact read_whole4 (arrWs m c) t a b
theorem iblk5_apply (c : Dev nD) (t : Fin cfg0.N) (a : Fin 64) (b : Fin 32) :
    iblk m c 5 t (ix2 a b) = arrWr m c (ix2 a b) := by
  rw [iblk5_eq]
  exact read_whole5 (arrWr m c) t a b
theorem iblk6_apply (c : Dev nD) (t : Fin cfg0.N) (a : Fin 1) (b : Fin 32) :
    iblk m c 6 t (ix2 a b) = arrB1 m c (ix2 a b) := by
  rw [iblk6_eq]
  exact read_whole6 (arrB1 m c) t a b
theorem iblk7_apply (c : Dev nD) (t : Fin cfg0.N) (a : Fin 32) (b : Fin 64) :
    iblk m c 7 t (ix2 a b) = arrW2 m c (ix2 a b) := by
  rw [iblk7_eq]
  exact read_whole7 (arrW2 m c) t a b
theorem iblk8_apply (c : Dev nD) (t : Fin cfg0.N) (a : Fin 1) (b : Fin 64) :
    iblk m c 8 t (ix2 a b) = arrB2 m c (ix2 a b) := by
  rw [iblk8_eq]
  exact read_whole8 (arrB2 m c) t a b

/-! ## What point t writes back is block t of the tiled update -/

/-- Entry (p, q) of a computed tile is entry (r, q) of the tiled update whenever row p of the three input tiles is row r
    of the three edge arrays and the whole blocks are their arrays: over plain arrays, whatever they are. -/
theorem tile_entry (x0 x1 x2 : Vec Ideal S16384x64 .f32) (x3 x4 x5 : Vec Ideal S64x32 .f32) (x6 : Vec Ideal S1x32 .f32)
    (x7 : Vec Ideal S32x64 .f32) (x8 : Vec Ideal S1x64 .f32)
    (E S R : FVec Ideal S1000000x64 .f32) (We Ws Wr : FVec Ideal S64x32 .f32) (B1 : FVec Ideal S1x32 .f32)
    (W2 : FVec Ideal S32x64 .f32) (B2 : FVec Ideal S1x64 .f32) (p : Fin 16384) (q : Fin 64) (r : Fin 1000000)
    (h0 : ∀ k : Fin 64, x0 (ix2 p k) = E (ix2 r k)) (h1 : ∀ k : Fin 64, x1 (ix2 p k) = S (ix2 r k))
    (h2 : ∀ k : Fin 64, x2 (ix2 p k) = R (ix2 r k))
    (h3 : ∀ (k : Fin 64) (c : Fin 32), x3 (ix2 k c) = We (ix2 k c)) (h4 : ∀ (k : Fin 64) (c : Fin 32), x4 (ix2 k c) = Ws (ix2 k c))
    (h5 : ∀ (k : Fin 64) (c : Fin 32), x5 (ix2 k c) = Wr (ix2 k c)) (h6 : ∀ c : Fin 32, x6 (ix2 0 c) = B1 (ix2 0 c))
    (h7 : ∀ (c : Fin 32) (j : Fin 64), x7 (ix2 c j) = W2 (ix2 c j)) (h8 : ∀ j : Fin 64, x8 (ix2 0 j) = B2 (ix2 0 j)) :
    tileOut (F := Ideal) x0 x1 x2 x3 x4 x5 x6 x7 x8 (ix2 p q)
      = Cert.EdgeMlp.edgeOutFolded E S R We Ws Wr B1 W2 B2 (ix2 r q) := by
  rw [tileOut_eq, Cert.KernelIdeal.Payload.pay_apply, Cert.EdgeMlp.edgeOutFolded_apply]
  unfold Cert.EdgeMlp.edgeOutFoldedAt
  simp only [h0, h1, h2, h3, h4, h5, h6, h7, h8]

theorem flushed_eq (c : Dev nD) (t : Fin cfg0.N) :
    (dats m 0 c).flushed 9 t = ((cfg0.win 9).blk t).view.read (Elt Ideal) (tiled m c) := by
  funext y
  have h0 : (y 0).val < win0_9.xsize (grid0.coords t) 0 := (y 0).isLt
  have h1 : (y 1).val < 64 := (xsize_rows t).2.2 ▸ (y 1).isLt
  have h0' : (y 0).val < 16384 := Nat.lt_of_lt_of_le h0 (win0_9.xsize_le (grid0.coords t) 0)
  have h0e : (y 0).val < win0_0.xsize (grid0.coords t) 0 := by rw [(xsize_rows t).1, ← (xsize_rows t).2.1]; exact h0
  have hr : 16384 * t.val + (y 0).val < 1000000 := by
    have := h0; rw [(xsize_rows t).2.1] at this; omega
  have ex : win0_9.xinj (grid0.coords t) y = (ix2 (⟨(y 0).val, h0'⟩ : Fin 16384) (⟨(y 1).val, h1⟩ : Fin 64) : S16384x64.Idx) :=
    funext fun a => Fin.ext (by match a with | ⟨0, _⟩ => rfl | ⟨1, _⟩ => rfl)
  have ee : (win0_9.blk t).view.emb y = (ix2 (⟨16384 * t.val + (y 0).val, hr⟩ : Fin 1000000) (⟨(y 1).val, h1⟩ : Fin 64) : S1000000x64.Idx) :=
    funext fun a => Fin.ext (by
      match a with
      | ⟨0, _⟩ =>
        show win0_9.index t 0 * 16384 + 1 * (y 0).val = 16384 * t.val + (y 0).val
        rw [(index_tiles t).2.2.2.2.2.2.1]; omega
      | ⟨1, _⟩ =>
        show win0_9.index t 1 * 64 + 1 * (y 1).val = (y 1).val
        rw [(index_tiles t).2.2.2.2.2.2.2]; omega)
  show (dats m 0 c).after 9 t (win0_9.xinj (grid0.coords t) y) = tiled m c ((win0_9.blk t).view.emb y)
  rw [after0_9, ex, ee]
  exact tile_entry _ _ _ _ _ _ _ _ _ (arrE m c) (arrS m c) (arrR m c) (arrWe m c) (arrWs m c) (arrWr m c) (arrB1 m c) (arrW2 m c) (arrB2 m c)
    ⟨(y 0).val, h0'⟩ ⟨(y 1).val, h1⟩ ⟨16384 * t.val + (y 0).val, hr⟩
    (fun k => tile0_apply m c t _ k h0e _ rfl) (fun k => tile1_apply m c t _ k h0e _ rfl) (fun k => tile2_apply m c t _ k h0e _ rfl)
    (fun k c' => iblk3_apply m c t k c') (fun k c' => iblk4_apply m c t k c') (fun k c' => iblk5_apply m c t k c')
    (fun c' => iblk6_apply m c t 0 c') (fun c' j => iblk7_apply m c t c' j) (fun j => iblk8_apply m c t 0 j)

/-! ## The tiles cover the result -/

/-- An index of the result lies in point t's tile iff its row is among the tile's rows inside the array. -/
theorem mem_blk (t : Fin cfg0.N) (i : S1000000x64.Idx) :
    i ∈ (win0_9.blk t).view.set ↔ 16384 * t.val ≤ (i 0).val ∧ (i 0).val < 16384 * t.val + min 16384 (1000000 - 16384 * t.val) := by
  show i ∈ ((View.whole main_v14).slice (win0_9.rect t)).set ↔ _
  rw [View.set_slice_whole, Rect.mem_set_unit]
  have h1 : (i 1).val < 64 := (i 1).isLt
  constructor
  · intro h
    have h0 : win0_9.index t 0 * 16384 ≤ (i 0).val ∧ (i 0).val < win0_9.index t 0 * 16384 + win0_9.xsize (grid0.coords t) 0 := h 0
    rw [(index_tiles t).2.2.2.2.2.2.1, (xsize_rows t).2.1] at h0
    omega
  · intro h a
    match a with
    | ⟨0, _⟩ =>
      show win0_9.index t 0 * 16384 ≤ (i 0).val ∧ (i 0).val < win0_9.index t 0 * 16384 + win0_9.xsize (grid0.coords t) 0
      rw [(index_tiles t).2.2.2.2.2.2.1, (xsize_rows t).2.1]; omega
    | ⟨1, _⟩ =>
      show win0_9.index t 1 * 64 ≤ (i 1).val ∧ (i 1).val < win0_9.index t 1 * 64 + win0_9.xsize (grid0.coords t) 1
      rw [(index_tiles t).2.2.2.2.2.2.2, (xsize_rows t).2.2]; omega

/-- Row r lies in tile r / 16384. -/
theorem cover (i : S1000000x64.Idx) : ∃ t : Fin cfg0.N, (cfg0.win 9).flush t = true ∧ i ∈ ((cfg0.win 9).blk t).view.set := by
  have h0 : (i 0).val < 1000000 := (i 0).isLt
  have ht : (i 0).val / 16384 < 62 := by omega
  refine ⟨⟨(i 0).val / 16384, ht⟩, flush0_9 _, ?_⟩
  show i ∈ (win0_9.blk ⟨(i 0).val / 16384, ht⟩).view.set
  rw [mem_blk]
  show 16384 * ((i 0).val / 16384) ≤ (i 0).val ∧ (i 0).val < 16384 * ((i 0).val / 16384) + min 16384 (1000000 - 16384 * ((i 0).val / 16384))
  omega

/-- THE RESULT ARRAY after the run: the update in its tiled arrangement, of the arrays the region reads. -/
theorem final (c : Dev nD) : (dats m 0 c).arrAt 9 cfg0.N = tiled m c :=
  (dats m 0 c).arrAt_eq_of_cover 9 (tiled m c) (fun t _ => flushed_eq m c t) cover

end Cert.KernelIdeal.Final

end
-- ==== Proof.IdealArgs.lean ====
/-
  The idealized kernel program's eight argument arrays on a core, each named at its literal type, so that arithmetic on
  their entries can be written.
-/
import proofs.«408958_j17729624998201_4_alg».proof.Proof.Gen.KernelIdeal
import Idealize.ShloMosaic.PureOps.Ideal

noncomputable section

namespace Cert.KernelIdeal.HostVals

open Cert.KernelIdeal Idealize.ShloMosaic Idealize.ShloMosaic.TcCoe Idealize.SL.Sem

variable (m : (ℓ : Loc nD τ sig) → Buf (Elt Ideal) ℓ)

/-- The node table: 100000 rows of 64 features. -/
abbrev nodeTab (c : Dev nD) : FVec Ideal S100000x64 .f32 := m ((c : Thread nD τ).loc main_arg0)
/-- The edges' own features: 1000000 rows of 64. -/
abbrev edgeFeat (c : Dev nD) : FVec Ideal S1000000x64 .f32 := m ((c : Thread nD τ).loc main_arg1)
/-- The global features: one row of 32. -/
abbrev globFeat (c : Dev nD) : FVec Ideal S1x32 .f32 := m ((c : Thread nD τ).loc main_arg2)
/-- The first layer's weights: 224 rows of 32. -/
abbrev weight1 (c : Dev nD) : FVec Ideal S224x32 .f32 := m ((c : Thread nD τ).loc main_arg3)
/-- The first layer's bias. -/
abbrev bias1 (c : Dev nD) : FVec Ideal S32 .f32 := m ((c : Thread nD τ).loc main_arg4)
/-- The second layer's weights: 32 rows of 64. -/
abbrev weight2 (c : Dev nD) : FVec Ideal S32x64 .f32 := m ((c : Thread nD τ).loc main_arg5)
/-- The second layer's bias. -/
abbrev bias2 (c : Dev nD) : FVec Ideal S64 .f32 := m ((c : Thread nD τ).loc main_arg6)
/-- The edge list: row 0 the senders, row 1 the receivers. -/
abbrev edgeList (c : Dev nD) : IVec S2x1000000 32 := m ((c : Thread nD τ).loc main_arg7)

end Cert.KernelIdeal.HostVals

end
-- ==== Proof.IdealLookup.lean ====
/-
  The sender and receiver rows the kernel region reads, in terms of the program's arguments: under the precondition the
  row lookups never meet their out-of-range filler.

  A lookup takes a vector of 1000000 edge-list entries s. It forms the row number w(s) = s + 100000 if s < 0, else s
  (a negative entry counts from the end of the 100000-row node table), gathers row w(s) of the table for every edge, and
  keeps the gathered row where 0 ≤ w(s) ≤ 99999, a filler elsewhere. The precondition says -100000 ≤ s ≤ 99999 for every
  entry, so 0 ≤ w(s) ≤ 99999 always (for s < 0: 0 ≤ s + 100000 ≤ 99999, with no wrap-around in 32 bits), the test is 1 at
  every edge, and the lookup is the gather.
-/
import proofs.«408958_j17729624998201_4_alg».proof.Defs
import proofs.«408958_j17729624998201_4_alg».proof.Proof.Gen.KernelIdeal.Frame
import proofs.«408958_j17729624998201_4_alg».proof.Proof.Gen.Pre_finite_inputs
import proofs.«408958_j17729624998201_4_alg».proof.Proof.Spec
import proofs.«408958_j17729624998201_4_alg».proof.Proof.IdealArgs
import proofs.«408958_j17729624998201_4_alg».proof.Proof.LibDotPlain
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Run
import Idealize.ShloMosaic.Lib.StableHlo.Predicate
import Idealize.ShloMosaic.PureOps.Ideal.Laws

noncomputable section

namespace Cert.KernelIdeal.HostVals

open Cert.KernelIdeal Cert.KernelIdeal.Gen Idealize.ShloMosaic Idealize.ShloMosaic.TcCoe Idealize.SL.Sem Idealize.ShloMosaic.ValueIdx
open scoped BigOperators

/-- Row (off 0) of the 2 × E edge list as a column of row numbers: a negative entry counts from the end of the
    node table (100000 is added to it), any other entry is itself. -/
def idxCol (x7 : IVec S2x1000000 32) (off : Fin 2 → Nat) (hs : S2x1000000.Slices off S1x1000000) : IVec S1000000x1 32 :=
  broadcastInDim S1000000x1 ![0] bcast_S1000000_S1000000x1_0
    (select (cmpi .slt (shapeCast S1000000 (extractStridedSlice S1x1000000 off x7 hs) shapeCasts_S1x1000000_S1000000)
              (broadcastInDim S1000000 ![] bcast_S_S1000000 (constantI S_ 32 0#32)))
            (addi (shapeCast S1000000 (extractStridedSlice S1x1000000 off x7 hs) shapeCasts_S1x1000000_S1000000)
              (broadcastInDim S1000000 ![] bcast_S_S1000000 (constantI S_ 32 100000#32)))
            (shapeCast S1000000 (extractStridedSlice S1x1000000 off x7 hs) shapeCasts_S1x1000000_S1000000))

/-- The node table's rows named by that column, one per edge. -/
def rowsOf (x0 : FVec Ideal S100000x64 .f32) (x7 : IVec S2x1000000 32) (off : Fin 2 → Nat)
    (hs : S2x1000000.Slices off S1x1000000) : FVec Ideal S1000000x64 .f32 :=
  Host.gather gather_S100000x64_S1000000x1_S1000000x64_1_0_n_n_0_1_164 x0 (idxCol x7 off hs)

/-! ## The lookup over plain arrays -/

/-- A vector of edge-list entries as a column of row numbers: a negative entry counts from the end of the node table
    (100000 is added to it), any other entry is itself. -/
private def colOf (sc : IVec S1000000 32) : IVec S1000000x1 32 :=
  broadcastInDim S1000000x1 ![0] bcast_S1000000_S1000000x1_0
    (select (cmpi .slt sc (broadcastInDim S1000000 ![] bcast_S_S1000000 (constantI S_ 32 0#32)))
            (addi sc (broadcastInDim S1000000 ![] bcast_S_S1000000 (constantI S_ 32 100000#32)))
            sc)

/-- The column of row numbers of a row of the edge list is that of the row's entries. -/
private theorem idxCol_eq_colOf (x7 : IVec S2x1000000 32) (off : Fin 2 → Nat) (hs : S2x1000000.Slices off S1x1000000) :
    idxCol x7 off hs
      = colOf (shapeCast S1000000 (extractStridedSlice S1x1000000 off x7 hs) shapeCasts_S1x1000000_S1000000) := rfl

/-- The two comparisons "0 ≤ row number" and "row number ≤ 99999" of each entry of a column, joined. -/
private def inRangeBits (col : IVec S1000000x1 32) : IVec S1000000x1 1 :=
  andi (cmpi .sge col (broadcastInDim S1000000x1 ![] bcast_S_S1000000x1 (constantI S_ 32 0#32)))
    (cmpi .sle col (broadcastInDim S1000000x1 ![0, 1] bcast_S1x1_S1000000x1_0_1
      (broadcastInDim S1x1 ![1] bcast_S1_S1x1_1 (constantI S1 32 99999#32))))

/-- A fold by `and` over 1s, started at 1, is 1. -/
private theorem foldl_andi_one {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi 1#1 1#1 = 1#1 from by decide]
    exact ih

/-- A reduction by `and` of an array of 1s, from 1, is 1 at every index. -/
private theorem reduce_andi_one {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x hx _

/-- A 32-bit word s with -100000 ≤ s ≤ 99999 (signed), moved up by 100000 when negative, lies in [0, 99999]:
    the sum s + 100000 of a negative s lies in [0, 99999], so it does not wrap. -/
private theorem wrap_range (s : BitVec 32) (hlo : (-100000 : Int) ≤ s.toInt) (hhi : s.toInt ≤ 99999) :
    IntOp.cmpi .sge (Scalar.select (IntOp.cmpi .slt s 0#32) (IntOp.addi s 100000#32) s) 0#32 = 1#1 ∧
    IntOp.cmpi .sle (Scalar.select (IntOp.cmpi .slt s 0#32) (IntOp.addi s 100000#32) s) 99999#32 = 1#1 := by
  rw [IntOp.cmpi_sge, IntOp.cmpi_sle]
  have h0 : (0#32 : BitVec 32).toInt = 0 := by decide
  have h9 : (99999#32 : BitVec 32).toInt = 99999 := by decide
  rw [h0, h9]
  unfold Scalar.select
  by_cases hneg : s.toInt < 0
  · have hc : IntOp.cmpi .slt s 0#32 = 1 := IntOp.cmpi_slt.2 (by rw [h0]; exact hneg)
    rw [if_pos hc]
    have hadd : (IntOp.addi s 100000#32).toInt = s.toInt + 100000 := by
      unfold IntOp.addi
      rw [BitVec.toInt_add, show (100000#32 : BitVec 32).toInt = 100000 from by decide, Int.bmod_def]
      omega
    rw [hadd]; omega
  · have hc : ¬ IntOp.cmpi .slt s 0#32 = 1 := fun h => hneg (by have := IntOp.cmpi_slt.1 h; rwa [h0] at this)
    rw [if_neg hc]; omega

/-- An entry of the row-number column is an entry s of the edge list, moved up by 100000 when negative. -/
private theorem idxCol_apply (x7 : IVec S2x1000000 32) (off : Fin 2 → Nat) (hs : S2x1000000.Slices off S1x1000000)
    (j : S1000000x1.Idx) :
    ∃ q : S2x1000000.Idx, idxCol x7 off hs j
      = Scalar.select (IntOp.cmpi .slt (x7 q) 0#32) (IntOp.addi (x7 q) 100000#32) (x7 q) :=
  ⟨_, rfl⟩

/-- When every edge-list entry lies in [-100000, 99999] the joined comparisons, reduced along each edge's one-entry row,
    are 1 at every edge. -/
private theorem reduce_inRange_one (x7 : IVec S2x1000000 32) (off : Fin 2 → Nat) (hs : S2x1000000.Slices off S1x1000000)
    (hx : ∀ q, (-100000 : Int) ≤ (x7 q).toInt ∧ (x7 q).toInt ≤ 99999) (r : S1000000.Idx) :
    Host.reduce IntOp.andi (inRangeBits (idxCol x7 off hs)) (constantI S_ 1 1#1) reducesTo_S1000000x1_S1000000_d1 h_S_ r
      = 1#1 := by
  refine reduce_andi_one _ _ _ (fun j => ?_) r
  obtain ⟨q, hq⟩ := idxCol_apply x7 off hs j
  have hw := wrap_range (x7 q) (hx q).1 (hx q).2
  rw [← hq] at hw
  exact IntOp.andi_eq_one.2 hw

section AnyFloat
variable {F : FTy → Type} [FloatOps F]

/-- The last step of a lookup: the gathered row where the joined comparisons hold along an edge's one-entry row, a filler
    elsewhere. -/
private def pickRows (bits : IVec S1000000x1 1) (x0 : FVec F S100000x64 .f32) (col : IVec S1000000x1 32) :
    FVec F S1000000x64 .f32 :=
  select (broadcastInDim S1000000x64 ![0] bcast_S1000000_S1000000x64_0
      (Host.reduce IntOp.andi bits (constantI S_ 1 1#1) reducesTo_S1000000x1_S1000000_d1 h_S_))
    (Host.gather gather_S100000x64_S1000000x1_S1000000x64_1_0_n_n_0_1_164 x0 col)
    (broadcastInDim S1000000x64 ![] bcast_S_S1000000x64 (constant (F := F) S_ .f32 0x7FC00000#32))

end AnyFloat

/-- With every edge-list entry in [-100000, 99999] the filler is never chosen: the lookup is the gathered rows. -/
private theorem pickRows_eq (x0 : FVec Ideal S100000x64 .f32) (x7 : IVec S2x1000000 32) (off : Fin 2 → Nat)
    (hs : S2x1000000.Slices off S1x1000000)
    (hx : ∀ q, (-100000 : Int) ≤ (x7 q).toInt ∧ (x7 q).toInt ≤ 99999) :
    pickRows (inRangeBits (idxCol x7 off hs)) x0 (idxCol x7 off hs) = rowsOf x0 x7 off hs := by
  funext i
  unfold pickRows select broadcastInDim
  rw [reduce_inRange_one x7 off hs hx]
  rfl

/-! ## The host operations before the region, read at the two windows' arrays -/

section AnyFloat
variable {F : FTy → Type} [FloatOps F]
variable (W : Valuation τ sig (Elt F))

/-- A line of operations run in two parts. -/
private theorem after_split (n : Nat) (l : List (HloOp τ sig (Elt F))) :
    StableHlo.after l W = StableHlo.after (l.drop n) (StableHlo.after (l.take n) W) := by
  rw [← StableHlo.after_append, List.take_append_drop]

/-! ### The first lookup's operations, in four parts

Each part is read over the contents `W` it starts from; the parts are then put one after the other. -/

/-- Operations 1–8: the column of row numbers. -/
private theorem take0_a : StableHlo.after (List.take 8 (hostOps0_1 (F := F))) W (Proc.devRef .tc main_call0_v5) = colOf (W (Proc.devRef .tc main_v1)) := by
  simp only [Gen.hostOps0_1, List.drop_succ_cons, List.drop_zero, List.take_succ_cons, List.take_zero]
  after_results
  rfl

private theorem take0_a_arg0 : StableHlo.after (List.take 8 (hostOps0_1 (F := F))) W (Proc.devRef .tc main_arg0) = W (Proc.devRef .tc main_arg0) := by
  simp only [Gen.hostOps0_1, List.drop_succ_cons, List.drop_zero, List.take_succ_cons, List.take_zero]
  after_results

/-- Operations 9–16: the two comparisons of each row number, joined. -/
private theorem take0_b : StableHlo.after (List.take 8 (List.drop 8 (hostOps0_1 (F := F)))) W (Proc.devRef .tc main_call0_v11) = inRangeBits (W (Proc.devRef .tc main_call0_v5)) := by
  simp only [Gen.hostOps0_1, List.drop_succ_cons, List.drop_zero, List.take_succ_cons, List.take_zero]
  after_results
  rfl

private theorem take0_b_v5 : StableHlo.after (List.take 8 (List.drop 8 (hostOps0_1 (F := F)))) W (Proc.devRef .tc main_call0_v5) = W (Proc.devRef .tc main_call0_v5) := by
  simp only [Gen.hostOps0_1, List.drop_succ_cons, List.drop_zero, List.take_succ_cons, List.take_zero]
  after_results

private theorem take0_b_arg0 : StableHlo.after (List.take 8 (List.drop 8 (hostOps0_1 (F := F)))) W (Proc.devRef .tc main_arg0) = W (Proc.devRef .tc main_arg0) := by
  simp only [Gen.hostOps0_1, List.drop_succ_cons, List.drop_zero, List.take_succ_cons, List.take_zero]
  after_results

/-- Operations 17–18: the joined comparisons reduced along each edge's one-entry row. Both sides are the
    same reduction of the same operands; it is not evaluated. -/
private theorem take0_c : StableHlo.after (List.take 2 (List.drop 8 (List.drop 8 (hostOps0_1 (F := F))))) W (Proc.devRef .tc main_call0_v12)
    = Host.reduce IntOp.andi (W (Proc.devRef .tc main_call0_v11)) (constantI S_ 1 1#1) reducesTo_S1000000x1_S1000000_d1 h_S_ := by
  simp only [Gen.hostOps0_1, List.drop_succ_cons, List.drop_zero, List.take_succ_cons, List.take_zero]
  after_results
  refine (cast_eq _ _).trans ?_
  rfl

private theorem take0_c_v5 : StableHlo.after (List.take 2 (List.drop 8 (List.drop 8 (hostOps0_1 (F := F))))) W (Proc.devRef .tc main_call0_v5) = W (Proc.devRef .tc main_call0_v5) := by
  simp only [Gen.hostOps0_1, List.drop_succ_cons, List.drop_zero, List.take_succ_cons, List.take_zero]
  after_results

private theorem take0_c_arg0 : StableHlo.after (List.take 2 (List.drop 8 (List.drop 8 (hostOps0_1 (F := F))))) W (Proc.devRef .tc main_arg0) = W (Proc.devRef .tc main_arg0) := by
  simp only [Gen.hostOps0_1, List.drop_succ_cons, List.drop_zero, List.take_succ_cons, List.take_zero]
  after_results

/-- Operations 19–23: the gather, and the choice between its rows and the filler. -/
private theorem take0_d : StableHlo.after (List.drop 2 (List.drop 8 (List.drop 8 (hostOps0_1 (F := F))))) W (Proc.devRef .tc main_v4)
    = select (broadcastInDim S1000000x64 ![0] bcast_S1000000_S1000000x64_0 (W (Proc.devRef .tc main_call0_v12)))
        (Host.gather gather_S100000x64_S1000000x1_S1000000x64_1_0_n_n_0_1_164 (W (Proc.devRef .tc main_arg0))
          (W (Proc.devRef .tc main_call0_v5)))
        (broadcastInDim S1000000x64 ![] bcast_S_S1000000x64 (constant (F := F) S_ .f32 0x7FC00000#32)) := by
  simp only [Gen.hostOps0_1, List.drop_succ_cons, List.drop_zero, List.take_succ_cons, List.take_zero]
  after_results
  rfl

/-- The first lookup as one function of the node table and the vector of entries it is given. -/
private theorem take0 : StableHlo.after (hostOps0_1 (F := F)) W (Proc.devRef .tc main_v4)
    = pickRows (inRangeBits (colOf (W (Proc.devRef .tc main_v1)))) (W (Proc.devRef .tc main_arg0))
        (colOf (W (Proc.devRef .tc main_v1))) := by
  rw [after_split W 8 hostOps0_1, after_split _ 8 (List.drop 8 hostOps0_1), after_split _ 2 (List.drop 8 (List.drop 8 hostOps0_1)),
    take0_d, take0_c, take0_c_v5, take0_c_arg0, take0_b, take0_b_v5, take0_b_arg0, take0_a, take0_a_arg0]
  rfl

/-! ### The second lookup's operations, in four parts

Each part is read over the contents `W` it starts from; the parts are then put one after the other. -/

/-- Operations 1–8: the column of row numbers. -/
private theorem take1_a : StableHlo.after (List.take 8 (hostOps0_2 (F := F))) W (Proc.devRef .tc main_call1_v5) = colOf (W (Proc.devRef .tc main_v3)) := by
  simp only [Gen.hostOps0_2, List.drop_succ_cons, List.drop_zero, List.take_succ_cons, List.take_zero]
  after_results
  rfl

private theorem take1_a_arg0 : StableHlo.after (List.take 8 (hostOps0_2 (F := F))) W (Proc.devRef .tc main_arg0) = W (Proc.devRef .tc main_arg0) := by
  simp only [Gen.hostOps0_2, List.drop_succ_cons, List.drop_zero, List.take_succ_cons, List.take_zero]
  after_results

/-- Operations 9–16: the two comparisons of each row number, joined. -/
private theorem take1_b : StableHlo.after (List.take 8 (List.drop 8 (hostOps0_2 (F := F)))) W (Proc.devRef .tc main_call1_v11) = inRangeBits (W (Proc.devRef .tc main_call1_v5)) := by
  simp only [Gen.hostOps0_2, List.drop_succ_cons, List.drop_zero, List.take_succ_cons, List.take_zero]
  after_results
  rfl

private theorem take1_b_v5 : StableHlo.after (List.take 8 (List.drop 8 (hostOps0_2 (F := F)))) W (Proc.devRef .tc main_call1_v5) = W (Proc.devRef .tc main_call1_v5) := by
  simp only [Gen.hostOps0_2, List.drop_succ_cons, List.drop_zero, List.take_succ_cons, List.take_zero]
  after_results

private theorem take1_b_arg0 : StableHlo.after (List.take 8 (List.drop 8 (hostOps0_2 (F := F)))) W (Proc.devRef .tc main_arg0) = W (Proc.devRef .tc main_arg0) := by
  simp only [Gen.hostOps0_2, List.drop_succ_cons, List.drop_zero, List.take_succ_cons, List.take_zero]
  after_results

/-- Operations 17–18: the joined comparisons reduced along each edge's one-entry row. Both sides are the
    same reduction of the same operands; it is not evaluated. -/
private theorem take1_c : StableHlo.after (List.take 2 (List.drop 8 (List.drop 8 (hostOps0_2 (F := F))))) W (Proc.devRef .tc main_call1_v12)
    = Host.reduce IntOp.andi (W (Proc.devRef .tc main_call1_v11)) (constantI S_ 1 1#1) reducesTo_S1000000x1_S1000000_d1 h_S_ := by
  simp only [Gen.hostOps0_2, List.drop_succ_cons, List.drop_zero, List.take_succ_cons, List.take_zero]
  after_results
  refine (cast_eq _ _).trans ?_
  rfl

private theorem take1_c_v5 : StableHlo.after (List.take 2 (List.drop 8 (List.drop 8 (hostOps0_2 (F := F))))) W (Proc.devRef .tc main_call1_v5) = W (Proc.devRef .tc main_call1_v5) := by
  simp only [Gen.hostOps0_2, List.drop_succ_cons, List.drop_zero, List.take_succ_cons, List.take_zero]
  after_results

private theorem take1_c_arg0 : StableHlo.after (List.take 2 (List.drop 8 (List.drop 8 (hostOps0_2 (F := F))))) W (Proc.devRef .tc main_arg0) = W (Proc.devRef .tc main_arg0) := by
  simp only [Gen.hostOps0_2, List.drop_succ_cons, List.drop_zero, List.take_succ_cons, List.take_zero]
  after_results

/-- Operations 19–23: the gather, and the choice between its rows and the filler. -/
private theorem take1_d : StableHlo.after (List.drop 2 (List.drop 8 (List.drop 8 (hostOps0_2 (F := F))))) W (Proc.devRef .tc main_v5)
    = select (broadcastInDim S1000000x64 ![0] bcast_S1000000_S1000000x64_0 (W (Proc.devRef .tc main_call1_v12)))
        (Host.gather gather_S100000x64_S1000000x1_S1000000x64_1_0_n_n_0_1_164 (W (Proc.devRef .tc main_arg0))
          (W (Proc.devRef .tc main_call1_v5)))
        (broadcastInDim S1000000x64 ![] bcast_S_S1000000x64 (constant (F := F) S_ .f32 0x7FC00000#32)) := by
  simp only [Gen.hostOps0_2, List.drop_succ_cons, List.drop_zero, List.take_succ_cons, List.take_zero]
  after_results
  rfl

/-- The second lookup as one function of the node table and the vector of entries it is given. -/
private theorem take1 : StableHlo.after (hostOps0_2 (F := F)) W (Proc.devRef .tc main_v5)
    = pickRows (inRangeBits (colOf (W (Proc.devRef .tc main_v3)))) (W (Proc.devRef .tc main_arg0))
        (colOf (W (Proc.devRef .tc main_v3))) := by
  rw [after_split W 8 hostOps0_2, after_split _ 8 (List.drop 8 hostOps0_2), after_split _ 2 (List.drop 8 (List.drop 8 hostOps0_2)),
    take1_d, take1_c, take1_c_v5, take1_c_arg0, take1_b, take1_b_v5, take1_b_arg0, take1_a, take1_a_arg0]
  rfl

/-! ### The stretches around the lookups -/

/-- After the two slices and reshapes: the vector of senders' entries. -/
private theorem pre_v1 : StableHlo.after (hostOps0 (F := F)) W (Proc.devRef .tc main_v1)
    = shapeCast S1000000 (extractStridedSlice S1x1000000 ![0, 0] (W (Proc.devRef .tc main_arg7))
        slices_S2x1000000_S1x1000000_0_0) shapeCasts_S1x1000000_S1000000 := by
  simp only [Gen.hostOps0]
  after_results
  rfl

/-- Likewise the vector of receivers' entries. -/
private theorem pre_v3 : StableHlo.after (hostOps0 (F := F)) W (Proc.devRef .tc main_v3)
    = shapeCast S1000000 (extractStridedSlice S1x1000000 ![1, 0] (W (Proc.devRef .tc main_arg7))
        slices_S2x1000000_S1x1000000_1_0) shapeCasts_S1x1000000_S1000000 := by
  simp only [Gen.hostOps0]
  after_results
  rfl

private theorem pre_arg0 : StableHlo.after (hostOps0 (F := F)) W (Proc.devRef .tc main_arg0) = W (Proc.devRef .tc main_arg0) := by
  simp only [Gen.hostOps0]
  after_results

/-- The first lookup leaves the receivers' entries and the node table as they were. -/
private theorem take0_v3 : StableHlo.after (hostOps0_1 (F := F)) W (Proc.devRef .tc main_v3) = W (Proc.devRef .tc main_v3) := by
  simp only [Gen.hostOps0_1]
  after_results_simp

private theorem take0_arg0 : StableHlo.after (hostOps0_1 (F := F)) W (Proc.devRef .tc main_arg0) = W (Proc.devRef .tc main_arg0) := by
  simp only [Gen.hostOps0_1]
  after_results_simp

/-- The second lookup leaves the first one's result as it was; the last stretch leaves both. -/
private theorem take1_v4 : StableHlo.after (hostOps0_2 (F := F)) W (Proc.devRef .tc main_v4) = W (Proc.devRef .tc main_v4) := by
  simp only [Gen.hostOps0_2]
  after_results_simp

private theorem post_v4 : StableHlo.after (hostOps0_3 (F := F)) W (Proc.devRef .tc main_v4) = W (Proc.devRef .tc main_v4) := by
  simp only [Gen.hostOps0_3]
  after_results_simp

private theorem post_v5 : StableHlo.after (hostOps0_3 (F := F)) W (Proc.devRef .tc main_v5) = W (Proc.devRef .tc main_v5) := by
  simp only [Gen.hostOps0_3]
  after_results_simp

/-! ### The two windows' arrays when the region is entered -/

variable (mF : (ℓ : Loc nD τ sig) → Buf (Elt F) ℓ)

/-- The senders' rows: the lookup through row 0 of the edge list. -/
private theorem V_main_v4_read (c : Dev nD) :
    (V mF c main_v4 : FVec F S1000000x64 .f32)
      = pickRows (inRangeBits (idxCol (mF ((c : Thread nD τ).loc main_arg7)) ![0, 0] slices_S2x1000000_S1x1000000_0_0))
          (mF ((c : Thread nD τ).loc main_arg0))
          (idxCol (mF ((c : Thread nD τ).loc main_arg7)) ![0, 0] slices_S2x1000000_S1x1000000_0_0) := by
  dsimp only [Gen.V]
  simp only [List.flatten_cons, List.flatten_nil, List.append_nil, StableHlo.after_append]
  rw [post_v4, take1_v4, take0, pre_v1, pre_arg0]
  rfl

/-- The receivers' rows: the lookup through row 1. -/
private theorem V_main_v5_read (c : Dev nD) :
    (V mF c main_v5 : FVec F S1000000x64 .f32)
      = pickRows (inRangeBits (idxCol (mF ((c : Thread nD τ).loc main_arg7)) ![1, 0] slices_S2x1000000_S1x1000000_1_0))
          (mF ((c : Thread nD τ).loc main_arg0))
          (idxCol (mF ((c : Thread nD τ).loc main_arg7)) ![1, 0] slices_S2x1000000_S1x1000000_1_0) := by
  dsimp only [Gen.V]
  simp only [List.flatten_cons, List.flatten_nil, List.append_nil, StableHlo.after_append]
  rw [post_v5, take1, take0_v3, take0_arg0, pre_v3, pre_arg0]
  rfl

end AnyFloat

variable (m : (ℓ : Loc nD τ sig) → Buf (Elt Ideal) ℓ)

/-- The precondition's last conjunct read at one entry: every edge-list entry lies in [-100000, 99999]. -/
private theorem pre_range (c : Dev nD) (hpre : Cert.Pre_KernelIdeal m) (q : S2x1000000.Idx) :
    (-100000 : Int) ≤ (edgeList m c q).toInt ∧ (edgeList m c q).toInt ≤ 99999 := by
  haveI : Subsingleton Cert.Pre_finite_inputs.S_.Idx := ⟨fun a b => funext fun d => d.elim0⟩
  have e := congrFun (hpre c) ValueIdx.ix0
  dsimp only [Cert.Pre_finite_inputs.fn, Cert.Pre_finite_inputs.fn_part1, Cert.Pre_finite_inputs.fn_part2] at e
  have hall := (IntOp.andi_eq_one.1 e).2
  have hq := Host.reduce_andi_all _ _ _ _ _ hall q
  obtain ⟨h1, h2⟩ := IntOp.andi_eq_one.1 hq
  have h1' : (4294867296#32 : BitVec 32).toInt ≤ (edgeList m c q).toInt := IntOp.cmpi_sge.1 h1
  have h2' : (edgeList m c q).toInt ≤ (99999#32 : BitVec 32).toInt := IntOp.cmpi_sle.1 h2
  rw [show (4294867296#32 : BitVec 32).toInt = -100000 from by decide] at h1'
  rw [show (99999#32 : BitVec 32).toInt = 99999 from by decide] at h2'
  exact ⟨h1', h2'⟩

/-- Under the precondition every edge-list entry lies in [-100000, 99999], so every row number is a row of the node
    table and the lookup's out-of-range filler is never selected: the senders' rows are the gathered rows. -/
theorem V_main_v4 (c : Dev nD) (hpre : Cert.Pre_KernelIdeal m) :
    V m c main_v4 = rowsOf (nodeTab m c) (edgeList m c) ![0, 0] slices_S2x1000000_S1x1000000_0_0 := by
  exact (V_main_v4_read m c).trans (pickRows_eq _ _ _ _ (pre_range m c hpre))

/-- Likewise the receivers' rows. -/
theorem V_main_v5 (c : Dev nD) (hpre : Cert.Pre_KernelIdeal m) :
    V m c main_v5 = rowsOf (nodeTab m c) (edgeList m c) ![1, 0] slices_S2x1000000_S1x1000000_1_0 := by
  exact (V_main_v5_read m c).trans (pickRows_eq _ _ _ _ (pre_range m c hpre))

end Cert.KernelIdeal.HostVals

end
-- ==== Proof.IdealWeights.lean ====
/-
  The weight blocks and bias rows the kernel region reads, entry by entry, in terms of the program's arguments.

  The host operations before the region come in four stretches; the arrays read here are all written by the last one
  (three row blocks cut out of the first layer's weights, the first bias plus the global features' product with the
  fourth row block, and the second bias as a one-row matrix). The fold over the four stretches is split once into the
  first three and the last; the last stretch's eight operations are then read over ANY contents of the buffers before
  it, and the four argument arrays it reads are unchanged by everything before the region.
-/
import proofs.«408958_j17729624998201_4_alg».proof.Defs
import proofs.«408958_j17729624998201_4_alg».proof.Proof.Gen.KernelIdeal.Frame
import proofs.«408958_j17729624998201_4_alg».proof.Proof.Gen.Pre_finite_inputs
import proofs.«408958_j17729624998201_4_alg».proof.Proof.Spec
import proofs.«408958_j17729624998201_4_alg».proof.Proof.IdealArgs
import proofs.«408958_j17729624998201_4_alg».proof.Proof.LibDotPlain
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Run
import Idealize.ShloMosaic.Lib.StableHlo.Predicate
import Idealize.ShloMosaic.PureOps.Ideal.Laws

noncomputable section

namespace Cert.KernelIdeal.HostVals

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ)

/-! ## The fold split before its last stretch -/

/-- A line of host operations run in two parts: the second part starts from what the first part left. -/
private theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => exact ih _

/-- The core's buffers before the last stretch of host operations. -/
private def beforeLast (c : Dev nD) : Valuation τ sig (Elt Ideal) :=
  StableHlo.after (hostOps0 ++ (hostOps0_1 ++ hostOps0_2)) (fun b => m (c, b))

/-- The contents at the region's entry are the last stretch run from there. -/
private theorem V_eq_last (c : Dev nD) (b : Ref sig .tc) :
    V m c b = StableHlo.after hostOps0_3 (beforeLast m c) (Proc.devRef .tc b) := by
  dsimp only [Gen.V, beforeLast]
  rw [← after_append]
  simp only [List.flatten_cons, List.flatten_nil, List.append_nil, List.append_assoc]

/-! ## The last stretch leaves the argument arrays alone -/

private theorem last_arg2 (X : Valuation τ sig (Elt Ideal)) :
    StableHlo.after hostOps0_3 X (Proc.devRef .tc main_arg2) = X (Proc.devRef .tc main_arg2) :=
  StableHlo.after_of_forall_not_mem (b := Proc.devRef .tc main_arg2) _ _ (List.forall_iff_forall_mem.mp (by
    simp only [hostOps0_3, List.Forall, StableHlo.unary_writes, StableHlo.binary_writes, StableHlo.reshape_writes, Finset.mem_singleton]
    repeat' apply And.intro
    all_goals exact StableHlo.devRef_ne_of_ne (by decide)))
private theorem last_arg3 (X : Valuation τ sig (Elt Ideal)) :
    StableHlo.after hostOps0_3 X (Proc.devRef .tc main_arg3) = X (Proc.devRef .tc main_arg3) :=
  StableHlo.after_of_forall_not_mem (b := Proc.devRef .tc main_arg3) _ _ (List.forall_iff_forall_mem.mp (by
    simp only [hostOps0_3, List.Forall, StableHlo.unary_writes, StableHlo.binary_writes, StableHlo.reshape_writes, Finset.mem_singleton]
    repeat' apply And.intro
    all_goals exact StableHlo.devRef_ne_of_ne (by decide)))
private theorem last_arg4 (X : Valuation τ sig (Elt Ideal)) :
    StableHlo.after hostOps0_3 X (Proc.devRef .tc main_arg4) = X (Proc.devRef .tc main_arg4) :=
  StableHlo.after_of_forall_not_mem (b := Proc.devRef .tc main_arg4) _ _ (List.forall_iff_forall_mem.mp (by
    simp only [hostOps0_3, List.Forall, StableHlo.unary_writes, StableHlo.binary_writes, StableHlo.reshape_writes, Finset.mem_singleton]
    repeat' apply And.intro
    all_goals exact StableHlo.devRef_ne_of_ne (by decide)))
private theorem last_arg6 (X : Valuation τ sig (Elt Ideal)) :
    StableHlo.after hostOps0_3 X (Proc.devRef .tc main_arg6) = X (Proc.devRef .tc main_arg6) :=
  StableHlo.after_of_forall_not_mem (b := Proc.devRef .tc main_arg6) _ _ (List.forall_iff_forall_mem.mp (by
    simp only [hostOps0_3, List.Forall, StableHlo.unary_writes, StableHlo.binary_writes, StableHlo.reshape_writes, Finset.mem_singleton]
    repeat' apply And.intro
    all_goals exact StableHlo.devRef_ne_of_ne (by decide)))

/-- Before the last stretch the global features, the first layer's weights and the two biases are as launched: no
    host operation before the region writes them, the last stretch included. -/
private theorem beforeLast_arg2 (c : Dev nD) : beforeLast m c (Proc.devRef .tc main_arg2) = globFeat m c :=
  ((last_arg2 (beforeLast m c)).symm.trans (V_eq_last m c main_arg2).symm).trans (V_main_arg2 m c)
private theorem beforeLast_arg3 (c : Dev nD) : beforeLast m c (Proc.devRef .tc main_arg3) = weight1 m c :=
  ((last_arg3 (beforeLast m c)).symm.trans (V_eq_last m c main_arg3).symm).trans (V_main_arg3 m c)
private theorem beforeLast_arg4 (c : Dev nD) : beforeLast m c (Proc.devRef .tc main_arg4) = bias1 m c :=
  ((last_arg4 (beforeLast m c)).symm.trans (V_eq_last m c main_arg4).symm).trans (V_main_arg4 m c)
private theorem beforeLast_arg6 (c : Dev nD) : beforeLast m c (Proc.devRef .tc main_arg6) = bias2 m c :=
  ((last_arg6 (beforeLast m c)).symm.trans (V_eq_last m c main_arg6).symm).trans (V_main_arg6 m c)

/-! ## What the last stretch writes, over any contents before it -/

private theorem last_v6 (X : Valuation τ sig (Elt Ideal)) :
    (StableHlo.after hostOps0_3 X (Proc.devRef .tc main_v6) : S64x32.Idx → EReal)
      = extractStridedSlice S64x32 ![0, 0] (X (Proc.devRef .tc main_arg3) : FVec Ideal S224x32 .f32) slices_S224x32_S64x32_0_0 := by
  simp only [hostOps0_3]
  after_results
private theorem last_v7 (X : Valuation τ sig (Elt Ideal)) :
    (StableHlo.after hostOps0_3 X (Proc.devRef .tc main_v7) : S64x32.Idx → EReal)
      = extractStridedSlice S64x32 ![64, 0] (X (Proc.devRef .tc main_arg3) : FVec Ideal S224x32 .f32) slices_S224x32_S64x32_64_0 := by
  simp only [hostOps0_3]
  after_results
private theorem last_v8 (X : Valuation τ sig (Elt Ideal)) :
    (StableHlo.after hostOps0_3 X (Proc.devRef .tc main_v8) : S64x32.Idx → EReal)
      = extractStridedSlice S64x32 ![128, 0] (X (Proc.devRef .tc main_arg3) : FVec Ideal S224x32 .f32) slices_S224x32_S64x32_128_0 := by
  simp only [hostOps0_3]
  after_results
private theorem last_v12 (X : Valuation τ sig (Elt Ideal)) :
    (StableHlo.after hostOps0_3 X (Proc.devRef .tc main_v12) : S1x32.Idx → EReal)
      = addf (F := Ideal) (φ := .f32) (shapeCast S1x32 (X (Proc.devRef .tc main_arg4) : FVec Ideal S32 .f32) shapeCasts_S32_S1x32)
          (Host.dotGeneral (φ₁ := .f32) (φ₂ := .f32) dot_S1x32_S32x32_S1x32_1_0_0_1_n_n none (X (Proc.devRef .tc main_arg2))
            (extractStridedSlice S32x32 ![192, 0] (X (Proc.devRef .tc main_arg3) : FVec Ideal S224x32 .f32) slices_S224x32_S32x32_192_0)) := by
  simp only [hostOps0_3]
  after_results
  rfl
private theorem last_v13 (X : Valuation τ sig (Elt Ideal)) :
    (StableHlo.after hostOps0_3 X (Proc.devRef .tc main_v13) : S1x64.Idx → EReal)
      = shapeCast S1x64 (X (Proc.devRef .tc main_arg6) : FVec Ideal S64 .f32) shapeCasts_S64_S1x64 := by
  simp only [hostOps0_3]
  after_results
  rfl

/-! ## The arrays at an entry, over variables of the literal array types -/

/-- The bias row: a 32-vector as a one-row matrix, plus the product of a one-row matrix with rows 192 ‥ 223 of a
    224-row matrix. -/
private theorem biasRow_apply (b : FVec Ideal S32 .f32) (g : FVec Ideal S1x32 .f32) (Wm : FVec Ideal S224x32 .f32) (j : Fin 32) :
    addf (F := Ideal) (φ := .f32) (shapeCast S1x32 b shapeCasts_S32_S1x32)
        (Host.dotGeneral dot_S1x32_S32x32_S1x32_1_0_0_1_n_n none g
          (extractStridedSlice S32x32 ![192, 0] Wm slices_S224x32_S32x32_192_0)) (ix2 0 j)
      = b (ix1 j) + ∑ k : Fin 32, g (ix2 0 k) * Wm (ix2 (Cert.EdgeMlp.rowG k) j) := by
  rw [addf_apply, shapeCast_a_1a_apply]
  congr 1
  refine (Cert.DotPlain.dotGeneral_rows_cols dot_S1x32_S32x32_S1x32_1_0_0_1_n_n rfl rfl rfl rfl rfl rfl none .single g _ 0 j).trans ?_
  refine Finset.sum_congr rfl fun k _ => ?_
  rw [slice2_axis0_apply 192 Wm slices_S224x32_S32x32_192_0 k j (Cert.EdgeMlp.rowG k) rfl]

/-! ## The five arrays the region reads -/

/-- The three 64-row blocks of the first layer's weights, at an entry. -/
theorem V_main_v6_apply (c : Dev nD) (k : Fin 64) (j : Fin 32) :
    (V m c main_v6 : FVec Ideal S64x32 .f32) (ix2 k j) = weight1 m c (ix2 (Cert.EdgeMlp.rowE k) j) := by
  have e : (V m c main_v6 : S64x32.Idx → EReal)
      = extractStridedSlice S64x32 ![0, 0] (weight1 m c) slices_S224x32_S64x32_0_0 := by
    rw [V_eq_last, last_v6, beforeLast_arg3]
  exact (congrFun e (ix2 k j)).trans
    (slice2_axis0_apply 0 (weight1 m c) slices_S224x32_S64x32_0_0 k j (Cert.EdgeMlp.rowE k) (Nat.zero_add k.val).symm)
theorem V_main_v7_apply (c : Dev nD) (k : Fin 64) (j : Fin 32) :
    (V m c main_v7 : FVec Ideal S64x32 .f32) (ix2 k j) = weight1 m c (ix2 (Cert.EdgeMlp.rowS k) j) := by
  have e : (V m c main_v7 : S64x32.Idx → EReal)
      = extractStridedSlice S64x32 ![64, 0] (weight1 m c) slices_S224x32_S64x32_64_0 := by
    rw [V_eq_last, last_v7, beforeLast_arg3]
  exact (congrFun e (ix2 k j)).trans
    (slice2_axis0_apply 64 (weight1 m c) slices_S224x32_S64x32_64_0 k j (Cert.EdgeMlp.rowS k) rfl)
theorem V_main_v8_apply (c : Dev nD) (k : Fin 64) (j : Fin 32) :
    (V m c main_v8 : FVec Ideal S64x32 .f32) (ix2 k j) = weight1 m c (ix2 (Cert.EdgeMlp.rowR k) j) := by
  have e : (V m c main_v8 : S64x32.Idx → EReal)
      = extractStridedSlice S64x32 ![128, 0] (weight1 m c) slices_S224x32_S64x32_128_0 := by
    rw [V_eq_last, last_v8, beforeLast_arg3]
  exact (congrFun e (ix2 k j)).trans
    (slice2_axis0_apply 128 (weight1 m c) slices_S224x32_S64x32_128_0 k j (Cert.EdgeMlp.rowR k) rfl)

/-- The bias row prepared before the region: the first layer's bias plus the global features against the last 32 rows
    of the weights. -/
theorem V_main_v12_apply (c : Dev nD) (j : Fin 32) :
    (V m c main_v12 : FVec Ideal S1x32 .f32) (ix2 0 j)
      = bias1 m c (ix1 j) + ∑ k : Fin 32, globFeat m c (ix2 0 k) * weight1 m c (ix2 (Cert.EdgeMlp.rowG k) j) := by
  have e : (V m c main_v12 : S1x32.Idx → EReal)
      = addf (F := Ideal) (φ := .f32) (shapeCast S1x32 (bias1 m c) shapeCasts_S32_S1x32)
          (Host.dotGeneral dot_S1x32_S32x32_S1x32_1_0_0_1_n_n none (globFeat m c)
            (extractStridedSlice S32x32 ![192, 0] (weight1 m c) slices_S224x32_S32x32_192_0)) := by
    rw [V_eq_last, last_v12, beforeLast_arg2, beforeLast_arg3, beforeLast_arg4]
  exact (congrFun e (ix2 0 j)).trans (biasRow_apply (bias1 m c) (globFeat m c) (weight1 m c) j)

/-- The second layer's bias as a one-row matrix. -/
theorem V_main_v13_apply (c : Dev nD) (j : Fin 64) :
    (V m c main_v13 : FVec Ideal S1x64 .f32) (ix2 0 j) = bias2 m c (ix1 j) := by
  have e : (V m c main_v13 : S1x64.Idx → EReal) = shapeCast S1x64 (bias2 m c) shapeCasts_S64_S1x64 := by
    rw [V_eq_last, last_v13, beforeLast_arg6]
  exact (congrFun e (ix2 0 j)).trans (shapeCast_a_1a_apply (bias2 m c) shapeCasts_S64_S1x64 0 j)

end Cert.KernelIdeal.HostVals

end
-- ==== Proof.IdealFinal.lean ====
/-
  The idealized kernel program's run, read at the program's arguments: the result array ends holding the edge update of
  the arguments (with the sender and receiver rows looked up in the node table), and the arguments end unchanged.

  The arrays the kernel region reads are host-side preparations of the arguments: the edge features themselves, the
  looked-up sender and receiver rows (under the precondition the lookup never meets its out-of-range filler), the
  three 64-row blocks of the first layer's weights, the bias row with the global features' product folded in, the
  second layer's weights and its bias as a one-row matrix. The tiled arrangement of those is the update itself.
-/
import proofs.«408958_j17729624998201_4_alg».proof.Defs
import proofs.«408958_j17729624998201_4_alg».proof.Proof.IdealValue
import proofs.«408958_j17729624998201_4_alg».proof.Proof.IdealLookup
import proofs.«408958_j17729624998201_4_alg».proof.Proof.IdealWeights
import proofs.«408958_j17729624998201_4_alg».proof.Proof.IdealArgs
import proofs.«408958_j17729624998201_4_alg».proof.Proof.Spec

noncomputable section

namespace Cert.KernelIdeal.Final

open Cert.KernelIdeal Cert.KernelIdeal.Gen Cert.KernelIdeal.Run Cert.KernelIdeal.HostVals
open Idealize.ShloMosaic Idealize.ShloMosaic.TcCoe Idealize.SL.Sem

variable (m : (ℓ : Loc nD τ sig) → Buf (Elt Ideal) ℓ) (ρ : Dev nD → PrngReg)

/-- The edge update of the program's arguments on core `c`. -/
def updated (c : Dev nD) : FVec Ideal S1000000x64 .f32 :=
  Cert.EdgeMlp.edgeOut (edgeFeat m c) (rowsOf (nodeTab m c) (edgeList m c) ![0, 0] slices_S2x1000000_S1x1000000_0_0)
    (rowsOf (nodeTab m c) (edgeList m c) ![1, 0] slices_S2x1000000_S1x1000000_1_0) (globFeat m c) (weight1 m c) (bias1 m c)
    (weight2 m c) (bias2 m c)

/-- The tiled arrangement of what the region reads is the update of the arguments. -/
theorem tiled_eq (c : Dev nD) (hpre : Cert.Pre_KernelIdeal m) : tiled m c = updated m c := by
  have hE : arrE m c = edgeFeat m c := V_main_arg1 m c
  have hS : arrS m c = rowsOf (nodeTab m c) (edgeList m c) ![0, 0] slices_S2x1000000_S1x1000000_0_0 := V_main_v4 m c hpre
  have hR : arrR m c = rowsOf (nodeTab m c) (edgeList m c) ![1, 0] slices_S2x1000000_S1x1000000_1_0 := V_main_v5 m c hpre
  have hW2 : arrW2 m c = weight2 m c := V_main_arg5 m c
  unfold tiled updated
  rw [hE, hS, hR, hW2]
  exact Cert.EdgeMlp.edgeOutFolded_eq (edgeFeat m c) _ _ (globFeat m c) (weight1 m c) (bias1 m c) (weight2 m c) (bias2 m c)
    (arrWe m c) (arrWs m c) (arrWr m c) (arrB1 m c) (arrB2 m c)
    (V_main_v6_apply m c) (V_main_v7_apply m c) (V_main_v8_apply m c) (V_main_v12_apply m c) (V_main_v13_apply m c)

/-- Under the precondition every weakly fair execution of @main terminates, with the result array at the update of the
    arguments and the arguments unchanged. -/
theorem run_value (hpre : Cert.Pre_KernelIdeal m) :
    θ_run defs (onTc (τ := τ) (main (F := Ideal))) ⟨m, fun _ => 0, ρ⟩ (fun r => ∀ c : Dev nD,
      r.2.mem ((c.tc : Thread nD τ).loc main_v14) = updated m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 9).trans ((final m c).trans (tiled_eq m c hpre)),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 7).trans (((dats m 0 c).arrAt_in 7 rfl _).trans ((A_eq m c 7).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Final

end
-- ==== Proof.RefRead.lean ====
/-
  The reference's run and its stages read at an index, gathered in one place for the modules that compare the
  reference with the kernel: nothing is proved here.
-/
import proofs.«408958_j17729624998201_4_alg».proof.Proof.Gen.ReferenceIdeal.Run
import proofs.«408958_j17729624998201_4_alg».proof.Proof.Gen.ReferenceIdeal.Read
-- ==== Proof.RefValue.lean ====
/-
  The reference's result as the edge update of its arguments.
-/
import proofs.«408958_j17729624998201_4_alg».proof.Proof.RefRead
import proofs.«408958_j17729624998201_4_alg».proof.Proof.Spec
import proofs.«408958_j17729624998201_4_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ### The operand indices of the two products and of the two bias rows, at an index given by its coordinates -/

/-- Hidden unit k of edge r is what the second product reads on its left at result index (r, j) … -/
private theorem lidx25 (r : Fin 1000000) (j : Fin 64) (k : Fin 32) : lidx_main_v25 (ix2 r j) k = ix2 r k :=
  funext fun a => Fin.ext (by match a with | ⟨0, _⟩ => rfl | ⟨1, _⟩ => rfl)

/-- … and entry (k, j) of the second layer's weights on its right. -/
private theorem ridx25 (r : Fin 1000000) (j : Fin 64) (k : Fin 32) : ridx_main_v25 (ix2 r j) k = ix2 k j :=
  funext fun a => Fin.ext (by match a with | ⟨0, _⟩ => rfl | ⟨1, _⟩ => rfl)

/-- The second bias, made a row and repeated down the edges, is read at its column. -/
private theorem idx26_27 (r : Fin 1000000) (j : Fin 64) : idx_main_v26 (idx_main_v27 (ix2 r j)) = ix1 j :=
  funext fun a => Fin.ext (by match a with | ⟨0, _⟩ => rfl)

/-- Joined feature k of edge r is what the first product reads on its left at result index (r, c) … -/
private theorem lidx20 (r : Fin 1000000) (c : Fin 32) (k : Fin 224) : lidx_main_v20 (ix2 r c) k = ix2 r k :=
  funext fun a => Fin.ext (by match a with | ⟨0, _⟩ => rfl | ⟨1, _⟩ => rfl)

/-- … and entry (k, c) of the first layer's weights on its right. -/
private theorem ridx20 (r : Fin 1000000) (c : Fin 32) (k : Fin 224) : ridx_main_v20 (ix2 r c) k = ix2 k c :=
  funext fun a => Fin.ext (by match a with | ⟨0, _⟩ => rfl | ⟨1, _⟩ => rfl)

/-- The first bias, made a row and repeated down the edges, is read at its column. -/
private theorem idx21_22 (r : Fin 1000000) (c : Fin 32) : idx_main_v21 (idx_main_v22 (ix2 r c)) = ix1 c :=
  funext fun a => Fin.ext (by match a with | ⟨0, _⟩ => rfl)

/-- The global features' one row, repeated down the edges, is read at row 0 and the same column. -/
private theorem idx18 (r : Fin 1000000) (q : Fin 32) : idx_main_v18 (ix2 r q) = ix2 0 q :=
  funext fun a => Fin.ext (by match a with | ⟨0, _⟩ => rfl | ⟨1, _⟩ => rfl)

/-! ### The joined features -/

/-- Column k of row r of the joined array: the four pieces span columns 0‥63, 64‥127, 128‥191 and 192‥223, and
    the piece whose span holds k is read at k less the columns before it. -/
private theorem joined_at (x0 : FVec Ideal S100000x64 .f32) (x1 : FVec Ideal S1000000x64 .f32) (x2 : FVec Ideal S1x32 .f32)
    (x7 : IVec S2x1000000 32) (r : Fin 1000000) (k : Fin 224) :
    val_main_v19 (F := Ideal) x0 x1 x2 x7 (ix2 r k)
      = Cert.EdgeMlp.joined (fun q => x1 (ix2 r q)) (fun q => val_main_v10 (F := Ideal) x0 x7 (ix2 r q))
          (fun q => val_main_v17 (F := Ideal) x0 x7 (ix2 r q)) (fun q => x2 (ix2 0 q)) k := by
  unfold val_main_v19
  generalize val_main_v10 (F := Ideal) x0 x7 = ns
  generalize val_main_v17 (F := Ideal) x0 x7 = nr
  have hk := k.isLt
  unfold Cert.EdgeMlp.joined
  by_cases h0 : k.val < 64
  · rw [dif_pos h0]
    exact concatenate_apply_piece (1 : Fin S1000000x224.rank) _ _ (ix2 r k) 0 (by show 0 < 4; omega) S1000000x64 x1 rfl rfl
      0 rfl (ix2 r ⟨k.val, h0⟩)
      (fun b => match b with
        | ⟨0, _⟩ => fun _ => rfl
        | ⟨1, _⟩ => fun hb => absurd (Fin.ext rfl) hb)
      (by show 0 + k.val = k.val; omega)
  · rw [dif_neg h0]
    by_cases h1 : k.val < 128
    · rw [dif_pos h1]
      exact concatenate_apply_piece (1 : Fin S1000000x224.rank) _ _ (ix2 r k) 1 (by show 1 < 4; omega) S1000000x64 ns rfl rfl
        64 rfl (ix2 r ⟨k.val - 64, by omega⟩)
        (fun b => match b with
          | ⟨0, _⟩ => fun _ => rfl
          | ⟨1, _⟩ => fun hb => absurd (Fin.ext rfl) hb)
        (by show 64 + (k.val - 64) = k.val; omega)
    · rw [dif_neg h1]
      by_cases h2 : k.val < 192
      · rw [dif_pos h2]
        exact concatenate_apply_piece (1 : Fin S1000000x224.rank) _ _ (ix2 r k) 2 (by show 2 < 4; omega) S1000000x64 nr rfl rfl
          128 rfl (ix2 r ⟨k.val - 128, by omega⟩)
          (fun b => match b with
            | ⟨0, _⟩ => fun _ => rfl
            | ⟨1, _⟩ => fun hb => absurd (Fin.ext rfl) hb)
          (by show 128 + (k.val - 128) = k.val; omega)
      · rw [dif_neg h2]
        refine (concatenate_apply_piece (1 : Fin S1000000x224.rank) _ _ (ix2 r k) 3 (by show 3 < 4; omega) S1000000x32
          (val_main_v18 (F := Ideal) x2) rfl rfl 192 rfl (ix2 r ⟨k.val - 192, by omega⟩)
          (fun b => match b with
            | ⟨0, _⟩ => fun _ => rfl
            | ⟨1, _⟩ => fun hb => absurd (Fin.ext rfl) hb)
          (by show 192 + (k.val - 192) = k.val; omega)).trans ?_
        rw [val_main_v18_apply, idx18]

/-! ### The hidden units and the result -/

/-- Hidden unit c of edge r before the rectifier: the one sum over the 224 joined features splits into the four
    partial sums, and the first bias is read at its column. -/
private theorem hidden_at (x0 : FVec Ideal S100000x64 .f32) (x1 : FVec Ideal S1000000x64 .f32) (x2 : FVec Ideal S1x32 .f32)
    (x3 : FVec Ideal S224x32 .f32) (x4 : FVec Ideal S32 .f32) (x7 : IVec S2x1000000 32) (r : Fin 1000000) (c : Fin 32) :
    val_main_v23 (F := Ideal) x0 x1 x2 x3 x4 x7 (ix2 r c)
      = Cert.EdgeMlp.hidden x1 (val_main_v10 (F := Ideal) x0 x7) (val_main_v17 (F := Ideal) x0 x7) x2 x3 x4 r c := by
  rw [val_main_v23_apply, val_main_v20_apply, val_main_v22_apply, val_main_v21_apply, Ideal.addf_def, idx21_22]
  unfold Cert.EdgeMlp.hidden
  congr 1
  refine Eq.trans (Finset.sum_congr rfl fun k _ => ?_)
    (Cert.EdgeMlp.sum_joined (fun q => x1 (ix2 r q)) (fun q => val_main_v10 (F := Ideal) x0 x7 (ix2 r q))
      (fun q => val_main_v17 (F := Ideal) x0 x7 (ix2 r q)) (fun q => x2 (ix2 0 q)) (fun q => x3 (ix2 q c)))
  rw [lidx20, ridx20, joined_at]

/-- The reference joins the edge's features, the gathered sender and receiver rows and the global features into 224
    columns, multiplies by the first layer's weights in one sum, adds the bias, rectifies, and applies the second
    layer: index by index that is the edge update, with the gathered rows standing as the arrays they are. -/
theorem ref_eq (x0 : FVec Ideal S100000x64 .f32) (x1 : FVec Ideal S1000000x64 .f32) (x2 : FVec Ideal S1x32 .f32)
    (x3 : FVec Ideal S224x32 .f32) (x4 : FVec Ideal S32 .f32) (x5 : FVec Ideal S32x64 .f32) (x6 : FVec Ideal S64 .f32)
    (x7 : IVec S2x1000000 32) :
    val_main_v28 (F := Ideal) x0 x1 x2 x3 x4 x5 x6 x7
      = Cert.EdgeMlp.edgeOut x1 (val_main_v10 (F := Ideal) x0 x7) (val_main_v17 (F := Ideal) x0 x7) x2 x3 x4 x5 x6 := by
  funext i
  obtain ⟨r, j, rfl⟩ : ∃ (r : Fin 1000000) (j : Fin 64), i = ix2 r j := ⟨i 0, i 1, eq_ix2 i⟩
  rw [Cert.EdgeMlp.edgeOut_apply, val_main_v28_apply, val_main_v25_apply, val_main_v27_apply, val_main_v26_apply,
    Ideal.addf_def, idx26_27]
  unfold Cert.EdgeMlp.edgeOutAt
  congr 1
  refine Finset.sum_congr rfl fun c _ => ?_
  rw [lidx25, ridx25, val_main_v24_apply, val_main_call0_v0_apply, val_main_call0_cst_apply, Ideal.maximumf_def,
    Ideal.ofBits_def, hidden_at]
  rfl

end Cert.ReferenceIdeal.RefValue

end
-- ==== Proof.lean ====
/-
  The certificate of the edge kernel: for each of 1,000,000 edges, its own 64 features, the 64 features of its sender and
  of its receiver node (rows of a 100000 × 64 table looked up by a 2 × 1,000,000 list of row numbers) and 32 global
  features pass through a two-layer perceptron, 224 → 32 → 64, with a rectifier between the layers.

  The reference joins the 224 features and multiplies by the first layer's 224 × 32 weights in one product. The kernel
  works on tiles of 16384 edges: three products of 64 columns against the three corresponding 64-row blocks of the
  weights, added left to right, plus a bias row prepared once (the first layer's bias plus the global features against
  the last 32 rows of the weights). Over the extended reals the two are one function: a sum over 224 consecutive
  positions is the sum of the four partial sums, and the rest is commutativity and associativity of addition.

  The statement carries one precondition beyond finite inputs: every entry of the edge list lies in [-100000, 99999],
  the row numbers the node table has (a negative one counts from the end). Outside that range the reference's lookup
  clamps the row number while the kernel's lookup fills the row with a not-a-number pattern, and the two results differ;
  inside it both look up the same row.

  The frames: the reference is host operations only (its run is read back operation by operation); the two kernel
  programs run their 62 grid points, the last tile overhanging the arrays by 15808 rows, whose contents in the staging
  buffers nothing names. At the word level the proof data therefore only relate what the body finds in a buffer to what
  it leaves (the weight blocks and bias rows are left as found); over the extended reals every matrix product is row by
  row, so the rows of the result tile inside the array are named from the rows of the input tiles inside the arrays.
-/
import proofs.«408958_j17729624998201_4_alg».proof.Defs
import proofs.«408958_j17729624998201_4_alg».proof.Proof.KernelFrame
import proofs.«408958_j17729624998201_4_alg».proof.Proof.IdealRun
import proofs.«408958_j17729624998201_4_alg».proof.Proof.IdealFinal
import proofs.«408958_j17729624998201_4_alg».proof.Proof.RefRead
import proofs.«408958_j17729624998201_4_alg».proof.Proof.RefValue
import Idealize.ShloMosaic.Adequacy
import Idealize.ShloMosaic.Init

noncomputable section

namespace Cert.Proof

open Idealize.ShloMosaic Idealize.ShloMosaic.TcCoe Idealize.SL.Sem

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's looked-up rows are the kernel program's: one lookup of one table by one column of row numbers. -/
theorem rows_eq (x0 : FVec Ideal Cert.ReferenceIdeal.S100000x64 .f32) (x7 : IVec Cert.ReferenceIdeal.S2x1000000 32) :
    Cert.ReferenceIdeal.Read.val_main_v10 (F := Ideal) x0 x7
        = Cert.KernelIdeal.HostVals.rowsOf x0 x7 ![0, 0] Cert.KernelIdeal.Facts₀.slices_S2x1000000_S1x1000000_0_0
    ∧ Cert.ReferenceIdeal.Read.val_main_v17 (F := Ideal) x0 x7
        = Cert.KernelIdeal.HostVals.rowsOf x0 x7 ![1, 0] Cert.KernelIdeal.Facts₀.slices_S2x1000000_S1x1000000_1_0 :=
  ⟨rfl, rfl⟩

/-- Both idealized programs, from memories that agree on the arguments, end with the edge update of the arguments. -/
theorem algebraic : Cert.algebraic_KernelIdeal_ReferenceIdeal := by
  intro m ρ m' ρ' hpre hagree
  refine ⟨fun c => Cert.KernelIdeal.Final.updated m c, Cert.KernelIdeal.Final.run_value m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  refine (Cert.ReferenceIdeal.Read.val_main_v28_eq (F := Ideal) _ _ _ _ _ _ _ _).trans ?_
  rw [Cert.ReferenceIdeal.RefValue.ref_eq, (rows_eq _ _).1, (rows_eq _ _).2]
  rfl

theorem claim : Cert.Claim :=
  ⟨Cert.Kernel.Gen.facts, Cert.KernelIdeal.Gen.facts, Cert.ReferenceIdeal.Gen.facts, Cert.Pre_finite_inputs.Gen.facts,
    Cert.Kernel.FrameProof.frame, Cert.KernelIdeal.Run.frame, frame_reference, preserves, algebraic⟩

end Cert.Proof

end
